-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S32x2048x1024 : Shape := ⟨3, ![32, 2048, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S32x2048x1024 : S_.BroadcastsInDim S32x2048x1024 (![] : Fin 0 → Fin S32x2048x1024.rank)
  reducesTo_S32x2048x1024_S_d0_1_2 : S32x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1 .f32) (main_arg7 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1 .f32 := Host.absf main_arg6
  let main_cst_10 : FVec F S_ .f32 := constant S_ .f32 0x7F800000#32
  let main_v30 : FVec F S1024x1 .f32 := broadcastInDim S1024x1 ![] bcast_S_S1024x1 main_cst_10
  let main_v31 : IVec S1024x1 1 := cmpf .olt main_v29 main_v30
  let main_c_11 : IVec S_ 1 := constantI S_ 1 1#1
  let main_v32 : IVec S_ 1 := (fun x v => Host.reduce IntOp.andi x v reducesTo_S1024x1_S_d0_1 h_S_) main_v31 main_c_11
  let main_v33 : IVec S_ 1 := andi main_v28 main_v32
  fn_part2 (F := F) main_arg7 main_v33

def fn {F : FTy → Type} [FloatOps F] (main_arg0 : FVec F S32x1024 .f32) (main_arg1 : FVec F S32x2048x1024 .f32) (main_arg2 : FVec F S1024x1024 .f32) (main_arg3 : FVec F S1024 .f32) (main_arg4 : FVec F S1024x1024 .f32) (main_arg5 : FVec F S1024 .f32) (main_arg6 : FVec F S1024x1 .f32) (main_arg7 : FVec F S1 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S32x2048x1024 .f32 := Host.absf main_arg1
  let main_cst_0 : FVec F S_ .f32 := constant S_ .f32 0x7F800000#32
  let main_v5 : FVec F S32x2048x1024 .f32 := broadcastInDim S32x2048x1024 ![] bcast_S_S32x2048x1024 main_cst_0
  let main_v6 : IVec S32x2048x1024 1 := cmpf .olt main_v4 main_v5
  let main_c_1 : IVec S_ 1 := constantI S_ 1 1#1
  let main_v7 : IVec S_ 1 := (fun x v => Host.reduce IntOp.andi x v reducesTo_S32x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S32x1024 : Shape := ⟨2, ![32, 1024]⟩
abbrev S32x2048x1024 : Shape := ⟨3, ![32, 2048, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1024 : Shape := ⟨2, ![1, 1024]⟩
abbrev S1x1 : Shape := ⟨2, ![1, 1]⟩
abbrev S32x1x1024 : Shape := ⟨3, ![32, 1, 1024]⟩
abbrev S32x2048x1 : Shape := ⟨3, ![32, 2048, 1]⟩
abbrev S32x1x1 : Shape := ⟨3, ![32, 1, 1]⟩
abbrev S1x1024x1024 : Shape := ⟨3, ![1, 1024, 1024]⟩
abbrev S1x1x1024 : Shape := ⟨3, ![1, 1, 1024]⟩
abbrev S1x1024x1 : Shape := ⟨3, ![1, 1024, 1]⟩
abbrev S1x1x1 : Shape := ⟨3, ![1, 1, 1]⟩

abbrev nBuf : Space → Nat
  | .hbm => 27
  | .vmem => 19
  | .smem => 0
  | _ => 0

abbrev bufTy : (tb : Table) → Fin (tcTables nBuf tb) → BufTy
  | .hbm, ⟨0, _⟩ => ⟨S32x1024, .f32⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S32x1024, .f32⟩
  | .hbm, ⟨9, _⟩ => ⟨S1x1024, .f32⟩
  | .hbm, ⟨10, _⟩ => ⟨S32x1024, .f32⟩
  | .hbm, ⟨11, _⟩ => ⟨S32x1024, .f32⟩
  | .hbm, ⟨12, _⟩ => ⟨S1024x1024, .bf16⟩
  | .hbm, ⟨13, _⟩ => ⟨S1x1024, .f32⟩
  | .hbm, ⟨14, _⟩ => ⟨S1x1, .f32⟩
  | .hbm, ⟨15, _⟩ => ⟨S32x1x1024, .f32⟩
  | .hbm, ⟨16, _⟩ => ⟨S1x1024, .f32⟩
  | .hbm, ⟨17, _⟩ => ⟨S32x2048x1, .f32⟩
  | .hbm, ⟨18, _⟩ => ⟨S32x1x1, .f32⟩
  | .hbm, ⟨19, _⟩ => ⟨S32x1x1, .f32⟩
  | .hbm, ⟨20, _⟩ => ⟨S32x1x1024, .f32⟩
  | .hbm, ⟨21, _⟩ => ⟨S32x1024, .f32⟩
  | .hbm, ⟨22, _⟩ => ⟨S32x2048x1, .f32⟩
  | .hbm, ⟨23, _⟩ => ⟨S32x2048x1, .f32⟩
  | .hbm, ⟨24, _⟩ => ⟨S32x2048x1, .f32⟩
  | .hbm, ⟨25, _⟩ => ⟨S32x2048x1, .f32⟩
  | .hbm, ⟨26, _⟩ => ⟨S32x2048x1, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1, .f32⟩
  | .local _ .vmem, ⟨8, _⟩ => ⟨S1x1024x1, .f32⟩
  | .local _ .vmem, ⟨9, _⟩ => ⟨S1x1024x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1x1x1024, .f32⟩
  | .local _ .vmem, ⟨15, _⟩ => ⟨S1x1x1024, .f32⟩
  | .local _ .vmem, ⟨16, _⟩ => ⟨S1x1, .f32⟩
  | .local _ .vmem, ⟨17, _⟩ => ⟨S1x1, .f32⟩
  | .local _ .vmem, ⟨18, _⟩ => ⟨S1x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v62 : BitVec 1 := Scalar.cmpi .eq arg1 c1_i32
  let v63 : BitVec 32 := Scalar.extui v62
  let c0_i32_33 : BitVec 32 := 0#32
  let v64 : BitVec 1 := Scalar.cmpi .ne v63 c0_i32_33
  v64

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bitsLt_bf16_f32 : FTy.bits .bf16 < FTy.bits .f32
  shapeCasts_S1024_S1x1024 : S1024.ShapeCasts S1x1024
  shapeCasts_S1_S1x1 : S1.ShapeCasts S1x1
  shapeCasts_S32x1024_S32x1x1024 : S32x1024.ShapeCasts S32x1x1024
  shapeCasts_S1024x1_S1x1024 : S1024x1.ShapeCasts S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S1024x1024 : S1x1024.Broadcasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  reduces_S1024x1024_S1024 : S1024x1024.Reduces [1] S1024
  shapeCasts_S1024_S1024x1 : S1024.ShapeCasts S1024x1
  broadcasts_S1x1_S1024x1 : S1x1.Broadcasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reduces_S1024x1_S1 : S1024x1.Reduces [0] S1
  broadcasts_S1024x1_S1024x1024 : S1024x1.Broadcasts S1024x1024
  reduces_S1024x1024_S1024_2 : S1024x1024.Reduces [0] S1024
  broadcasts_S1x1_S1x1024 : S1x1.Broadcasts S1x1024
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S1x1024_S1x1x1024 : S1x1024.ShapeCasts S1x1x1024
  shapeCasts_S32x1x1024_S32x1024 : S32x1x1024.ShapeCasts S32x1024
  bcast_S32x1x1_S32x2048x1_0_1_2 : S32x1x1.BroadcastsInDim S32x2048x1 (![0, 1, 2] : Fin 3 → Fin S32x2048x1.rank)
  dot_S32x1024_S1024x1024_S32x1024_1_0_0_1_n_n_wf : DotDims.WF S32x1024 S1024x1024 S32x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x2048x1024.size a
  hwx0_0 : ∀ i : grid0.Coords, EltTy.bits .f32 = 32 ∨ (Rect.block (s := S32x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S32x1x1024.size a
  hwx0_3 : ∀ i : grid0.Coords, EltTy.bits .f32 = 32 ∨ (Rect.block (s := S32x1x1024) S1x1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1.size a ≤ S32x2048x1.size a
  hwx0_6 : ∀ i : grid0.Coords, EltTy.bits .f32 = 32 ∨ (Rect.block (s := S32x2048x1) S1x1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S32x1x1.size a
  hwx0_7 : ∀ i : grid0.Coords, EltTy.bits .f32 = 32 ∨ (Rect.block (s := S32x1x1) S1x1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S32x1x1.size a
  hwx0_8 : ∀ i : grid0.Coords, EltTy.bits .f32 = 32 ∨ (Rect.block (s := S32x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1024.size a ≤ S32x1x1024.size a
  hwx0_9 : ∀ i : grid0.Coords, EltTy.bits .f32 = 32 ∨ (Rect.block (s := S32x1x1024) S1x1x1024.size (cc0_transform_9 i) (hinb0_9 i)).WholeWords (EltTy.packing .f32)

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S1x1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S1x1x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_2) S1x1x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_3) S1x1x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S32x1024 : Shape := ⟨2, ![32, 1024]⟩
abbrev S32x2048x1024 : Shape := ⟨3, ![32, 2048, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1x1024 : Shape := ⟨3, ![1, 1, 1024]⟩
abbrev S1x1024 : Shape := ⟨2, ![1, 1024]⟩
abbrev S32x1x1024 : Shape := ⟨3, ![32, 1, 1024]⟩
abbrev S32x2048x1 : Shape := ⟨3, ![32, 2048, 1]⟩
abbrev S1x1x1 : Shape := ⟨3, ![1, 1, 1]⟩
abbrev S_ : Shape := ⟨0, ![]⟩
abbrev S32x1 : Shape := ⟨2, ![32, 1]⟩
abbrev S32x1x1 : Shape := ⟨3, ![32, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S32x2048x1024, .f32⟩
  | .hbm, ⟨9, _⟩ => ⟨S1x1x1024, .f32⟩
  | .hbm, ⟨10, _⟩ => ⟨S32x2048x1024, .f32⟩
  | .hbm, ⟨11, _⟩ => ⟨S32x2048x1024, .f32⟩
  | .hbm, ⟨12, _⟩ => ⟨S32x1024, .f32⟩
  | .hbm, ⟨13, _⟩ => ⟨S1x1024, .f32⟩
  | .hbm, ⟨14, _⟩ => ⟨S32x1024, .f32⟩
  | .hbm, ⟨15, _⟩ => ⟨S32x1024, .f32⟩
  | .hbm, ⟨16, _⟩ => ⟨S32x1x1024, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S32x2048x1, .f32⟩
  | .hbm, ⟨21, _⟩ => ⟨S1x1x1, .f32⟩
  | .hbm, ⟨22, _⟩ => ⟨S32x2048x1, .f32⟩
  | .hbm, ⟨23, _⟩ => ⟨S32x2048x1, .f32⟩
  | .hbm, ⟨24, _⟩ => ⟨S_, .f32⟩
  | .hbm, ⟨25, _⟩ => ⟨S32x1, .f32⟩
  | .hbm, ⟨26, _⟩ => ⟨S_, .f32⟩
  | .hbm, ⟨27, _⟩ => ⟨S32x1, .f32⟩
  | .hbm, ⟨28, _⟩ => ⟨S32x1, .f32⟩
  | .hbm, ⟨29, _⟩ => ⟨S32x1x1, .f32⟩
  | .hbm, ⟨30, _⟩ => ⟨S32x2048x1, .f32⟩
  | .hbm, ⟨31, _⟩ => ⟨S32x2048x1, .f32⟩
  | .hbm, ⟨32, _⟩ => ⟨S32x2048x1, .f32⟩
  | .hbm, ⟨33, _⟩ => ⟨S_, .f32⟩
  | .hbm, ⟨34, _⟩ => ⟨S32x1, .f32⟩
  | .hbm, ⟨35, _⟩ => ⟨S32x1x1, .f32⟩
  | .hbm, ⟨36, _⟩ => ⟨S32x2048x1, .f32⟩
  | .hbm, ⟨37, _⟩ => ⟨S32x2048x1, .f32⟩
  | .hbm, ⟨38, _⟩ => ⟨S32x2048x1024, .f32⟩
  | .hbm, ⟨39, _⟩ => ⟨S32x2048x1024, .f32⟩
  | .hbm, ⟨40, _⟩ => ⟨S_, .f32⟩
  | .hbm, ⟨41, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x2048x1024_0_1_2 : S1x1x1024.BroadcastsInDim S32x2048x1024 (![0, 1, 2] : Fin 3 → Fin S32x2048x1024.rank)
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S32x1024_S32x1x1024_0_2 : S32x1024.BroadcastsInDim S32x1x1024 (![0, 2] : Fin 2 → Fin S32x1x1024.rank)
  bcast_S32x1x1024_S32x2048x1024_0_1_2 : S32x1x1024.BroadcastsInDim S32x2048x1024 (![0, 1, 2] : Fin 3 → Fin S32x2048x1024.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  bcast_S32x2048x1_S32x2048x1024_0_1_2 : S32x2048x1.BroadcastsInDim S32x2048x1024 (![0, 1, 2] : Fin 3 → Fin S32x2048x1024.rank)
  reducesTo_S32x2048x1024_S32x1024_d1 : S32x2048x1024.ReducesTo [1] S32x1024
  dot_S32x2048x1024_S1024x1024_S32x2048x1024_2_0_01_1_n_n_wf : DotDims.WF S32x2048x1024 S1024x1024 S32x2048x1024 [2] [0] [0, 1] [1] [] []
  dot_S32x1024_S1024x1024_S32x1024_1_0_0_1_n_n_wf : DotDims.WF S32x1024 S1024x1024 S32x1024 [1] [0] [0] [1] [] []
  dot_S32x2048x1024_S1024x1_S32x2048x1_2_0_01_1_n_n_wf : DotDims.WF S32x2048x1024 S1024x1 S32x2048x1 [2] [0] [0, 1] [1] [] []

variable [Facts₀]

def dot_S32x2048x1024_S1024x1024_S32x2048x1024_2_0_01_1_n_n : DotDims S32x2048x1024 S1024x1024 S32x2048x1024 where
  lhsContracting := [2]
  rhsContracting := [0]
  lhsNonContracting := [0, 1]
  rhsNonContracting := [1]
  lhsBatch := []
  rhsBatch := []
  wf := dot_S32x2048x1024_S1024x1024_S32x2048x1024_2_0_01_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x2048x1024_S1024x1_S32x2048x1_2_0_01_1_n_n : DotDims S32x2048x1024 S1024x1 S32x2048x1 where
  lhsContracting := [2]
  rhsContracting := [0]
  lhsNonContracting := [0, 1]
  rhsNonContracting := [1]
  lhsBatch := []
  rhsBatch := []
  wf := dot_S32x2048x1024_S1024x1_S32x2048x1_2_0_01_1_n_n_wf

class Facts : Prop extends Facts₀ where

variable [Facts]
-- ==== Proof.PiecesA.lean ====
/-
  What the body leaves at a grid point that STARTS a batch row (the first tile): the tile's scores in the score
  output's block, and in the three carried buffers the running maximum, sum and weighted sum after one tile from the
  reset values (the finite starting maximum, zero, zero) — each the body's own arithmetic of the point's six input
  blocks. The reset stores are overwritten by the update's stores, and the update's loads read the reset values back.
-/
import proofs.«414751_j21079699488857_3_alg».proof.Proof.Gen.KernelIdeal.Frame
import Idealize.ShloMosaic.Lib.Pipeline.Value
import Idealize.ShloMosaic.Lib.Tactic

set_option maxRecDepth 16384

noncomputable section

namespace Cert.Attn.PiecesA

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The score block: the tile's scores. -/
theorem outA6 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1024 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : cond0_0 i) (hc1 : ¬cond0_1 i) (x0 : Vec F S1x1024x1024 .f32) (x1 : Vec F S1024x1024 .bf16) (x2 : Vec F S1x1024 .f32) (x3 : Vec F S1x1x1024 .f32) (x4 : Vec F S1x1024 .f32) (x5 : Vec F S1x1 .f32) :
    out0_A_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 = k0_pay15 x0 x1 x2 x3 x4 x5 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold kernelRun0_A
  dsimp only
  sl_unfold_words
  rw [View.canon_unit_zero hz3]
  simp only [View.readAt_eq_ld, harg2.read_unread, harg3.read_unread, harg4.read_unread, harg5.read_unread, harg6.read_unread, harg7.read_unread, View.ld_unit_zero (S := S1x1024x1024) hz3, View.ld_unit_zero (S := S1024x1024) hz2, View.ld_unit_zero (S := S1x1024) hz2, View.ld_unit_zero (S := S1x1x1024) hz3, View.ld_unit_zero (S := S1x1) hz2, View.readCov_unit_zero (S := S1x1) _ hz2, View.readCov_unit_zero (S := S1x1024) _ hz2]

/-- The running maximum: the larger of the starting value and the tile's maximum. -/
theorem soutA0 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1024 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : cond0_0 i) (hc1 : ¬cond0_1 i) (x0 : Vec F S1x1024x1024 .f32) (x1 : Vec F S1024x1024 .bf16) (x2 : Vec F S1x1024 .f32) (x3 : Vec F S1x1x1024 .f32) (x4 : Vec F S1x1024 .f32) (x5 : Vec F S1x1 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 = k0_pay5 (k0_pay16 x0 x1 x2 x3 x4 x5) k0_pay10 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold kernelRun0_A
  dsimp only
  sl_unfold_words
  rw [View.canon_cons_unit_zero (S := S1x1) hz2]
  simp only [View.readAt_eq_ld, harg2.read_unread, harg3.read_unread, harg4.read_unread, harg5.read_unread, harg6.read_unread, harg7.read_unread, View.ld_unit_zero (S := S1x1024x1024) hz3, View.ld_unit_zero (S := S1024x1024) hz2, View.ld_unit_zero (S := S1x1024) hz2, View.ld_unit_zero (S := S1x1x1024) hz3, View.ld_unit_zero (S := S1x1) hz2, View.readCov_unit_zero (S := S1x1) _ hz2, View.readCov_unit_zero (S := S1x1024) _ hz2]

/-- The running sum of exponentials, from zero. -/
theorem soutA1 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1024 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : cond0_0 i) (hc1 : ¬cond0_1 i) (x0 : Vec F S1x1024x1024 .f32) (x1 : Vec F S1024x1024 .bf16) (x2 : Vec F S1x1024 .f32) (x3 : Vec F S1x1x1024 .f32) (x4 : Vec F S1x1024 .f32) (x5 : Vec F S1x1 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 = k0_pay4 (k0_pay14 x0 x1 x2 x3 x4 x5) (k0_pay16 x0 x1 x2 x3 x4 x5) k0_pay10 k0_pay11 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold kernelRun0_A
  dsimp only
  sl_unfold_words
  rw [View.canon_cons_unit_zero (S := S1x1) hz2]
  simp only [View.readAt_eq_ld, harg2.read_unread, harg3.read_unread, harg4.read_unread, harg5.read_unread, harg6.read_unread, harg7.read_unread, View.ld_unit_zero (S := S1x1024x1024) hz3, View.ld_unit_zero (S := S1024x1024) hz2, View.ld_unit_zero (S := S1x1024) hz2, View.ld_unit_zero (S := S1x1x1024) hz3, View.ld_unit_zero (S := S1x1) hz2, View.readCov_unit_zero (S := S1x1) _ hz2, View.readCov_unit_zero (S := S1x1024) _ hz2]

/-- The running weighted sum of the features, from zero. -/
theorem soutA2 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1024 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : cond0_0 i) (hc1 : ¬cond0_1 i) (x0 : Vec F S1x1024x1024 .f32) (x1 : Vec F S1024x1024 .bf16) (x2 : Vec F S1x1024 .f32) (x3 : Vec F S1x1x1024 .f32) (x4 : Vec F S1x1024 .f32) (x5 : Vec F S1x1 .f32) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 = k0_pay6 (k0_pay13 x0) (k0_pay14 x0 x1 x2 x3 x4 x5) (k0_pay16 x0 x1 x2 x3 x4 x5) k0_pay10 k0_pay12 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold kernelRun0_A
  dsimp only
  sl_unfold_words
  rw [View.canon_cons_unit_zero (S := S1x1024) hz2]
  simp only [View.readAt_eq_ld, harg2.read_unread, harg3.read_unread, harg4.read_unread, harg5.read_unread, harg6.read_unread, harg7.read_unread, View.ld_unit_zero (S := S1x1024x1024) hz3, View.ld_unit_zero (S := S1024x1024) hz2, View.ld_unit_zero (S := S1x1024) hz2, View.ld_unit_zero (S := S1x1x1024) hz3, View.ld_unit_zero (S := S1x1) hz2, View.readCov_unit_zero (S := S1x1) _ hz2, View.readCov_unit_zero (S := S1x1024) _ hz2]

end Cert.Attn.PiecesA

end
-- ==== Proof.PiecesB.lean ====
/-
  What the body leaves at a grid point that ENDS a batch row (the second tile), given what the first tile left in the
  three carried buffers (`xs0` the running maximum, `xs1` the running sum, `xs2` the running weighted sum): the tile's
  scores in the score output's block; the carried buffers advanced by one tile; and the three final outputs — the
  maximum, the sum, and the weighted sum divided by the sum — which are the advanced buffers read back.
-/
import proofs.«414751_j21079699488857_3_alg».proof.Proof.Gen.KernelIdeal.Frame
import Idealize.ShloMosaic.Lib.Pipeline.Value
import Idealize.ShloMosaic.Lib.Tactic

set_option maxRecDepth 16384

noncomputable section

namespace Cert.Attn.PiecesB

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The score block: the tile's scores. -/
theorem outB6 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1024 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : ¬cond0_0 i) (hc1 : cond0_1 i) (x0 : Vec F S1x1024x1024 .f32) (x1 : Vec F S1024x1024 .bf16) (x2 : Vec F S1x1024 .f32) (x3 : Vec F S1x1x1024 .f32) (x4 : Vec F S1x1024 .f32) (x5 : Vec F S1x1 .f32) (xs0 : Vec F S1x1 .f32) (xs1 : Vec F S1x1 .f32) (xs2 : Vec F S1x1024 .f32) :
    out0_B_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = k0_pay15 x0 x1 x2 x3 x4 x5 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread, harg7.read_unread, View.ld_unit_zero (S := S1x1024x1024) hz3, View.ld_unit_zero (S := S1024x1024) hz2, View.ld_unit_zero (S := S1x1024) hz2, View.ld_unit_zero (S := S1x1x1024) hz3, View.ld_unit_zero (S := S1x1) hz2, View.readCov_unit_zero (S := S1x1) _ hz2, View.readCov_unit_zero (S := S1x1024) _ hz2, harg12.read_unread, harg13.read_unread, harg14.read_unread, View.ld_unit_zero (S := S1x1x1) hz3, View.readCov_unit_zero (S := S1x1x1) _ hz3, View.readCov_unit_zero (S := S1x1x1024) _ hz3]

/-- The running maximum after the second tile. -/
theorem soutB0 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1024 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : ¬cond0_0 i) (hc1 : cond0_1 i) (x0 : Vec F S1x1024x1024 .f32) (x1 : Vec F S1024x1024 .bf16) (x2 : Vec F S1x1024 .f32) (x3 : Vec F S1x1x1024 .f32) (x4 : Vec F S1x1024 .f32) (x5 : Vec F S1x1 .f32) (xs0 : Vec F S1x1 .f32) (xs1 : Vec F S1x1 .f32) (xs2 : Vec F S1x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = k0_pay5 (k0_pay16 x0 x1 x2 x3 x4 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, View.ld_unit_zero (S := S1x1024x1024) hz3, View.ld_unit_zero (S := S1024x1024) hz2, View.ld_unit_zero (S := S1x1024) hz2, View.ld_unit_zero (S := S1x1x1024) hz3, View.ld_unit_zero (S := S1x1) hz2, View.readCov_unit_zero (S := S1x1) _ hz2, View.readCov_unit_zero (S := S1x1024) _ hz2, harg12.read_unread, harg13.read_unread, harg14.read_unread, View.ld_unit_zero (S := S1x1x1) hz3, View.readCov_unit_zero (S := S1x1x1) _ hz3, View.readCov_unit_zero (S := S1x1x1024) _ hz3]

/-- The running sum after the second tile. -/
theorem soutB1 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1024 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : ¬cond0_0 i) (hc1 : cond0_1 i) (x0 : Vec F S1x1024x1024 .f32) (x1 : Vec F S1024x1024 .bf16) (x2 : Vec F S1x1024 .f32) (x3 : Vec F S1x1x1024 .f32) (x4 : Vec F S1x1024 .f32) (x5 : Vec F S1x1 .f32) (xs0 : Vec F S1x1 .f32) (xs1 : Vec F S1x1 .f32) (xs2 : Vec F S1x1024 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = k0_pay4 (k0_pay14 x0 x1 x2 x3 x4 x5) (k0_pay16 x0 x1 x2 x3 x4 x5) xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, View.ld_unit_zero (S := S1x1024x1024) hz3, View.ld_unit_zero (S := S1024x1024) hz2, View.ld_unit_zero (S := S1x1024) hz2, View.ld_unit_zero (S := S1x1x1024) hz3, View.ld_unit_zero (S := S1x1) hz2, View.readCov_unit_zero (S := S1x1) _ hz2, View.readCov_unit_zero (S := S1x1024) _ hz2, harg12.read_unread, harg13.read_unread, harg14.read_unread, View.ld_unit_zero (S := S1x1x1) hz3, View.readCov_unit_zero (S := S1x1x1) _ hz3, View.readCov_unit_zero (S := S1x1x1024) _ hz3]

/-- The running weighted sum after the second tile. -/
theorem soutB2 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1024 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : ¬cond0_0 i) (hc1 : cond0_1 i) (x0 : Vec F S1x1024x1024 .f32) (x1 : Vec F S1024x1024 .bf16) (x2 : Vec F S1x1024 .f32) (x3 : Vec F S1x1x1024 .f32) (x4 : Vec F S1x1024 .f32) (x5 : Vec F S1x1 .f32) (xs0 : Vec F S1x1 .f32) (xs1 : Vec F S1x1 .f32) (xs2 : Vec F S1x1024 .f32) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = k0_pay6 (k0_pay13 x0) (k0_pay14 x0 x1 x2 x3 x4 x5) (k0_pay16 x0 x1 x2 x3 x4 x5) xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, View.ld_unit_zero (S := S1x1024x1024) hz3, View.ld_unit_zero (S := S1024x1024) hz2, View.ld_unit_zero (S := S1x1024) hz2, View.ld_unit_zero (S := S1x1x1024) hz3, View.ld_unit_zero (S := S1x1) hz2, View.readCov_unit_zero (S := S1x1) _ hz2, View.readCov_unit_zero (S := S1x1024) _ hz2, harg12.read_unread, harg13.read_unread, harg14.read_unread, View.ld_unit_zero (S := S1x1x1) hz3, View.readCov_unit_zero (S := S1x1x1) _ hz3, View.readCov_unit_zero (S := S1x1x1024) _ hz3]

/-- The maximum output: the final running maximum. -/
theorem outB7 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1024 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : ¬cond0_0 i) (hc1 : cond0_1 i) (x0 : Vec F S1x1024x1024 .f32) (x1 : Vec F S1024x1024 .bf16) (x2 : Vec F S1x1024 .f32) (x3 : Vec F S1x1x1024 .f32) (x4 : Vec F S1x1024 .f32) (x5 : Vec F S1x1 .f32) (xs0 : Vec F S1x1 .f32) (xs1 : Vec F S1x1 .f32) (xs2 : Vec F S1x1024 .f32) :
    out0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = k0_pay7 (k0_pay5 (k0_pay16 x0 x1 x2 x3 x4 x5) xs0) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread, harg7.read_unread, View.ld_unit_zero (S := S1x1024x1024) hz3, View.ld_unit_zero (S := S1024x1024) hz2, View.ld_unit_zero (S := S1x1024) hz2, View.ld_unit_zero (S := S1x1x1024) hz3, View.ld_unit_zero (S := S1x1) hz2, View.readCov_unit_zero (S := S1x1) _ hz2, View.readCov_unit_zero (S := S1x1024) _ hz2, harg12.read_unread, harg13.read_unread, harg14.read_unread, View.ld_unit_zero (S := S1x1x1) hz3, View.readCov_unit_zero (S := S1x1x1) _ hz3, View.readCov_unit_zero (S := S1x1x1024) _ hz3]

/-- The sum output: the final running sum. -/
theorem outB8 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1024 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : ¬cond0_0 i) (hc1 : cond0_1 i) (x0 : Vec F S1x1024x1024 .f32) (x1 : Vec F S1024x1024 .bf16) (x2 : Vec F S1x1024 .f32) (x3 : Vec F S1x1x1024 .f32) (x4 : Vec F S1x1024 .f32) (x5 : Vec F S1x1 .f32) (xs0 : Vec F S1x1 .f32) (xs1 : Vec F S1x1 .f32) (xs2 : Vec F S1x1024 .f32) :
    out0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = k0_pay8 (k0_pay4 (k0_pay14 x0 x1 x2 x3 x4 x5) (k0_pay16 x0 x1 x2 x3 x4 x5) xs0 xs1) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread, harg7.read_unread, View.ld_unit_zero (S := S1x1024x1024) hz3, View.ld_unit_zero (S := S1024x1024) hz2, View.ld_unit_zero (S := S1x1024) hz2, View.ld_unit_zero (S := S1x1x1024) hz3, View.ld_unit_zero (S := S1x1) hz2, View.readCov_unit_zero (S := S1x1) _ hz2, View.readCov_unit_zero (S := S1x1024) _ hz2, harg12.read_unread, harg13.read_unread, harg14.read_unread, View.ld_unit_zero (S := S1x1x1) hz3, View.readCov_unit_zero (S := S1x1x1) _ hz3, View.readCov_unit_zero (S := S1x1x1024) _ hz3]

/-- The context output: the final weighted sum divided by the final sum. -/
theorem outB9 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1024 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : ¬cond0_0 i) (hc1 : cond0_1 i) (x0 : Vec F S1x1024x1024 .f32) (x1 : Vec F S1024x1024 .bf16) (x2 : Vec F S1x1024 .f32) (x3 : Vec F S1x1x1024 .f32) (x4 : Vec F S1x1024 .f32) (x5 : Vec F S1x1 .f32) (xs0 : Vec F S1x1 .f32) (xs1 : Vec F S1x1 .f32) (xs2 : Vec F S1x1024 .f32) :
    out0_B_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = k0_pay9 (k0_pay6 (k0_pay13 x0) (k0_pay14 x0 x1 x2 x3 x4 x5) (k0_pay16 x0 x1 x2 x3 x4 x5) xs0 xs2) (k0_pay4 (k0_pay14 x0 x1 x2 x3 x4 x5) (k0_pay16 x0 x1 x2 x3 x4 x5) xs0 xs1) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread, harg7.read_unread, View.ld_unit_zero (S := S1x1024x1024) hz3, View.ld_unit_zero (S := S1024x1024) hz2, View.ld_unit_zero (S := S1x1024) hz2, View.ld_unit_zero (S := S1x1x1024) hz3, View.ld_unit_zero (S := S1x1) hz2, View.readCov_unit_zero (S := S1x1) _ hz2, View.readCov_unit_zero (S := S1x1024) _ hz2, harg12.read_unread, harg13.read_unread, harg14.read_unread, View.ld_unit_zero (S := S1x1x1) hz3, View.readCov_unit_zero (S := S1x1x1) _ hz3, View.readCov_unit_zero (S := S1x1x1024) _ hz3]

end Cert.Attn.PiecesB

end
-- ==== Proof.PointVals.lean ====
/-
  What the kernel's output buffers and its three carried buffers hold after each grid point, as the body's own
  arithmetic of the point's input blocks.  The 64 grid points go through the 32 batch rows two tiles at a time:
  an even point is a row's first tile and starts the running maximum, sum and weighted sum afresh; the odd point
  after it is the row's second tile, continues from what the even point left, and writes the row's three final
  outputs.  Nothing is carried from one row to the next.
-/
import proofs.«414751_j21079699488857_3_alg».proof.Proof.PiecesA
import proofs.«414751_j21079699488857_3_alg».proof.Proof.PiecesB
import Idealize.ShloMosaic.PureOps.Ideal

set_option maxRecDepth 16384

noncomputable section

namespace Cert.Attn

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The six input blocks of grid point `t`: the tile of feature rows, the first projection's matrix and bias, the
    row's projected query, the scoring row and its bias. -/
abbrev b0 (t : Fin cfg0.N) : Vec Ideal S1x1024x1024 .f32 := iblk m c 0 t
abbrev b1 (t : Fin cfg0.N) : Vec Ideal S1024x1024 .bf16 := iblk m c 1 t
abbrev b2 (t : Fin cfg0.N) : Vec Ideal S1x1024 .f32 := iblk m c 2 t
abbrev b3 (t : Fin cfg0.N) : Vec Ideal S1x1x1024 .f32 := iblk m c 3 t
abbrev b4 (t : Fin cfg0.N) : Vec Ideal S1x1024 .f32 := iblk m c 4 t
abbrev b5 (t : Fin cfg0.N) : Vec Ideal S1x1 .f32 := iblk m c 5 t

/-- The tile's scores as the body computes them, as a block of the score output. -/
def scoreBlk (t : Fin cfg0.N) : Vec Ideal S1x1024x1 .f32 := k0_pay15 (b0 m c t) (b1 m c t) (b2 m c t) (b3 m c t) (b4 m c t) (b5 m c t)
/-- The running maximum, sum and weighted sum after a row's FIRST tile (from the reset values). -/
def mA (t : Fin cfg0.N) : Vec Ideal S1x1 .f32 := k0_pay5 (k0_pay16 (b0 m c t) (b1 m c t) (b2 m c t) (b3 m c t) (b4 m c t) (b5 m c t)) (k0_pay10 (F := Ideal))
def lA (t : Fin cfg0.N) : Vec Ideal S1x1 .f32 := k0_pay4 (k0_pay14 (b0 m c t) (b1 m c t) (b2 m c t) (b3 m c t) (b4 m c t) (b5 m c t)) (k0_pay16 (b0 m c t) (b1 m c t) (b2 m c t) (b3 m c t) (b4 m c t) (b5 m c t)) (k0_pay10 (F := Ideal)) (k0_pay11 (F := Ideal))
def cA (t : Fin cfg0.N) : Vec Ideal S1x1024 .f32 := k0_pay6 (k0_pay13 (b0 m c t)) (k0_pay14 (b0 m c t) (b1 m c t) (b2 m c t) (b3 m c t) (b4 m c t) (b5 m c t)) (k0_pay16 (b0 m c t) (b1 m c t) (b2 m c t) (b3 m c t) (b4 m c t) (b5 m c t)) (k0_pay10 (F := Ideal)) (k0_pay12 (F := Ideal))
/-- The same after a row's SECOND tile `t`, continuing from the first tile `p`. -/
def mB (p t : Fin cfg0.N) : Vec Ideal S1x1 .f32 := k0_pay5 (k0_pay16 (b0 m c t) (b1 m c t) (b2 m c t) (b3 m c t) (b4 m c t) (b5 m c t)) (mA m c p)
def lB (p t : Fin cfg0.N) : Vec Ideal S1x1 .f32 := k0_pay4 (k0_pay14 (b0 m c t) (b1 m c t) (b2 m c t) (b3 m c t) (b4 m c t) (b5 m c t)) (k0_pay16 (b0 m c t) (b1 m c t) (b2 m c t) (b3 m c t) (b4 m c t) (b5 m c t)) (mA m c p) (lA m c p)
def cB (p t : Fin cfg0.N) : Vec Ideal S1x1024 .f32 := k0_pay6 (k0_pay13 (b0 m c t)) (k0_pay14 (b0 m c t) (b1 m c t) (b2 m c t) (b3 m c t) (b4 m c t) (b5 m c t)) (k0_pay16 (b0 m c t) (b1 m c t) (b2 m c t) (b3 m c t) (b4 m c t) (b5 m c t)) (mA m c p) (cA m c p)

/-- The point before `t`. -/
def prev (t : Fin cfg0.N) : Fin cfg0.N := ⟨t.val - 1, Nat.lt_of_le_of_lt (Nat.sub_le _ _) t.isLt⟩

/-! ## An even point (a row's first tile) -/

theorem even_score (t : Fin cfg0.N) (h0 : t.val % 2 = 0) (h1 : ¬t.val % 2 = 1) :
    (outsAt0 m c t.val t.isLt).1 = scoreBlk m c t := by
  rw [outsAt0_A m c t h0 h1]
  dsimp only
  exact PiecesA.outA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem even_m (t : Fin cfg0.N) (h0 : t.val % 2 = 0) (h1 : ¬t.val % 2 = 1) :
    (outsAt0 m c t.val t.isLt).2.2.2.2.1 = mA m c t := by
  rw [outsAt0_A m c t h0 h1]
  dsimp only
  exact PiecesA.soutA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem even_l (t : Fin cfg0.N) (h0 : t.val % 2 = 0) (h1 : ¬t.val % 2 = 1) :
    (outsAt0 m c t.val t.isLt).2.2.2.2.2.1 = lA m c t := by
  rw [outsAt0_A m c t h0 h1]
  dsimp only
  exact PiecesA.soutA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem even_c (t : Fin cfg0.N) (h0 : t.val % 2 = 0) (h1 : ¬t.val % 2 = 1) :
    (outsAt0 m c t.val t.isLt).2.2.2.2.2.2 = cA m c t := by
  rw [outsAt0_A m c t h0 h1]
  dsimp only
  exact PiecesA.soutA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-! ## An odd point (a row's second tile): it continues from the even point before it -/

theorem prev_even (t : Fin cfg0.N) (h1 : t.val % 2 = 1) : (prev t).val % 2 = 0 ∧ ¬(prev t).val % 2 = 1 := by
  show (t.val - 1) % 2 = 0 ∧ ¬(t.val - 1) % 2 = 1
  omega

theorem odd_score (t : Fin cfg0.N) (h0 : ¬t.val % 2 = 0) (h1 : t.val % 2 = 1) :
    (outsAt0 m c t.val t.isLt).1 = scoreBlk m c t := by
  rw [outsAt0_B m c t h0 h1]
  dsimp only
  exact PiecesB.outB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) _ _ _

theorem odd_m (t : Fin cfg0.N) (h0 : ¬t.val % 2 = 0) (h1 : t.val % 2 = 1) :
    (outsAt0 m c t.val t.isLt).2.1 = k0_pay7 (mB m c (prev t) t) := by
  rw [outsAt0_B m c t h0 h1]
  dsimp only
  refine (PiecesB.outB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) _ _ _).trans ?_
  show k0_pay7 (k0_pay5 _ (outsAt0 m c (prev t).val (prev t).isLt).2.2.2.2.1) = _
  rw [even_m m c (prev t) (prev_even t h1).1 (prev_even t h1).2]
  rfl

theorem odd_l (t : Fin cfg0.N) (h0 : ¬t.val % 2 = 0) (h1 : t.val % 2 = 1) :
    (outsAt0 m c t.val t.isLt).2.2.1 = k0_pay8 (lB m c (prev t) t) := by
  rw [outsAt0_B m c t h0 h1]
  dsimp only
  refine (PiecesB.outB8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) _ _ _).trans ?_
  show k0_pay8 (k0_pay4 _ _ (outsAt0 m c (prev t).val (prev t).isLt).2.2.2.2.1 (outsAt0 m c (prev t).val (prev t).isLt).2.2.2.2.2.1) = _
  rw [even_m m c (prev t) (prev_even t h1).1 (prev_even t h1).2, even_l m c (prev t) (prev_even t h1).1 (prev_even t h1).2]
  rfl

theorem odd_ctx (t : Fin cfg0.N) (h0 : ¬t.val % 2 = 0) (h1 : t.val % 2 = 1) :
    (outsAt0 m c t.val t.isLt).2.2.2.1 = k0_pay9 (cB m c (prev t) t) (lB m c (prev t) t) := by
  rw [outsAt0_B m c t h0 h1]
  dsimp only
  refine (PiecesB.outB9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) _ _ _).trans ?_
  show k0_pay9 (k0_pay6 _ _ _ (outsAt0 m c (prev t).val (prev t).isLt).2.2.2.2.1 (outsAt0 m c (prev t).val (prev t).isLt).2.2.2.2.2.2)
      (k0_pay4 _ _ (outsAt0 m c (prev t).val (prev t).isLt).2.2.2.2.1 (outsAt0 m c (prev t).val (prev t).isLt).2.2.2.2.2.1) = _
  rw [even_m m c (prev t) (prev_even t h1).1 (prev_even t h1).2, even_l m c (prev t) (prev_even t h1).1 (prev_even t h1).2,
    even_c m c (prev t) (prev_even t h1).1 (prev_even t h1).2]
  rfl

/-- The score block at every point, first or second tile. -/
theorem score_any (t : Fin cfg0.N) : (outsAt0 m c t.val t.isLt).1 = scoreBlk m c t := by
  by_cases h : t.val % 2 = 0
  · exact even_score m c t h (by omega)
  · exact odd_score m c t h (by omega)

end Cert.Attn

end
-- ==== Proof.Spec.lean ====
/-
  The mathematics both programs compute, over the extended reals, written once over plain coordinates.

  A SCORE of one sequence position: with `xrow` the position's feature row, `W1`, `b1` the first projection,
  `pq` the batch row's projected query, `vrow` the scoring vector and `bv` its bias,
      score = (∑ u, tanh ((∑ d, xrow d * W1 d u) + b1 u + pq u) * vrow u) + bv.

  The ATTENTION of one batch row over its 2048 positions is the softmax of the scores; the context is the
  softmax-weighted sum of the feature rows.  One program takes the softmax in one pass (maximum, exponentials,
  sum, quotient); the other walks the positions in two tiles of 1024, keeping a running maximum `m`, a running
  sum `l` and a running weighted sum `c`, each rescaled by `exp (m_old - m_new)` when the maximum moves
  (`mStep`, `lStep`, `cStep`), starting from a finite, very negative maximum, and divides at the end.
-/
import Idealize.ShloMosaic.PureOps.Ideal
import Idealize.ShloMosaic.PureOps.Ideal.Laws

noncomputable section

namespace Cert.Attn

open Idealize.ShloMosaic

/-- The finite, very negative number the tiled program starts its running maximum from. -/
abbrev negBig : EReal := Ideal.ofBits .f32 0xFF333332#32
/-- Minus infinity, the value every maximum-reduction starts from. -/
abbrev negInf : EReal := Ideal.ofBits .f32 0xFF800000#32
/-- The zero every sum starts from. -/
abbrev zero32 : EReal := Ideal.ofBits .f32 0x00000000#32

/-- The projected query of batch row `b`, feature `u`: `(∑ d, q b d * W2 d u) + b2 u`. -/
def projQ (q : Fin 32 → Fin 1024 → EReal) (W2 : Fin 1024 → Fin 1024 → EReal) (b2 : Fin 1024 → EReal)
    (b : Fin 32) (u : Fin 1024) : EReal :=
  (∑ d, q b d * W2 d u) + b2 u

/-- The score of one position from its feature row. -/
def scoreOf (xrow : Fin 1024 → EReal) (W1 : Fin 1024 → Fin 1024 → EReal) (b1 pq vrow : Fin 1024 → EReal)
    (bv : EReal) : EReal :=
  (∑ u, Ideal.tanh ((∑ d, xrow d * W1 d u) + b1 u + pq u) * vrow u) + bv

/-! ## One tile of the running softmax -/

/-- The maximum of a tile's scores, from minus infinity. -/
def tileMax (s : Fin 1024 → EReal) : EReal := (Finset.univ : Finset (Fin 1024)).fold max negInf s
/-- The running maximum after a tile. -/
def mStep (mOld : EReal) (s : Fin 1024 → EReal) : EReal := max mOld (tileMax s)
/-- The factor that rescales what was accumulated under the old maximum. -/
def corr (mOld : EReal) (s : Fin 1024 → EReal) : EReal := Ideal.exp (mOld - mStep mOld s)
/-- A position's exponential under the new maximum. -/
def pExp (mOld : EReal) (s : Fin 1024 → EReal) (r : Fin 1024) : EReal := Ideal.exp (s r - mStep mOld s)
/-- The running sum of exponentials after a tile. -/
def lStep (mOld lOld : EReal) (s : Fin 1024 → EReal) : EReal := lOld * corr mOld s + ∑ r, pExp mOld s r
/-- The running weighted sum of one feature after a tile (`x r` the feature at position `r` of the tile). -/
def cStep (mOld cOld : EReal) (s x : Fin 1024 → EReal) : EReal := cOld * corr mOld s + ∑ r, pExp mOld s r * x r

/-! ## A batch row in two tiles (`s k`, `x k`: tile `k`'s scores and one feature's column) -/

def m0 (s : Fin 2 → Fin 1024 → EReal) : EReal := mStep negBig (s 0)
def l0 (s : Fin 2 → Fin 1024 → EReal) : EReal := lStep negBig zero32 (s 0)
def c0 (s x : Fin 2 → Fin 1024 → EReal) : EReal := cStep negBig zero32 (s 0) (x 0)
def m1 (s : Fin 2 → Fin 1024 → EReal) : EReal := mStep (m0 s) (s 1)
def l1 (s : Fin 2 → Fin 1024 → EReal) : EReal := lStep (m0 s) (l0 s) (s 1)
def c1 (s x : Fin 2 → Fin 1024 → EReal) : EReal := cStep (m0 s) (c0 s x) (s 1) (x 1)
/-- The tiled program's attention weight of position `r` of tile `k`. -/
def tiledW (s : Fin 2 → Fin 1024 → EReal) (k : Fin 2) (r : Fin 1024) : EReal :=
  Ideal.div (Ideal.exp (s k r - m1 s)) (l1 s)
/-- The tiled program's context entry for one feature. -/
def tiledCtx (s x : Fin 2 → Fin 1024 → EReal) : EReal := Ideal.div (c1 s x) (l1 s)

/-! ## A batch row in one pass (`S j`, `X j`: position `j`'s score and one feature's column) -/

def passM (S : Fin 2048 → EReal) : EReal := max negInf ((Finset.univ : Finset (Fin 2048)).fold max negInf S)
def passE (S : Fin 2048 → EReal) (j : Fin 2048) : EReal := Ideal.exp (S j - passM S)
def passL (S : Fin 2048 → EReal) : EReal := zero32 + ∑ j, passE S j
def passW (S : Fin 2048 → EReal) (j : Fin 2048) : EReal := Ideal.div (passE S j) (passL S)
def passCtx (S X : Fin 2048 → EReal) : EReal := zero32 + ∑ j, passW S j * X j

/-- Position `r` of tile `k` is position `1024 k + r` of the row. -/
def pos (k : Fin 2) (r : Fin 1024) : Fin 2048 := ⟨1024 * k.val + r.val, by have := k.isLt; have := r.isLt; omega⟩

end Cert.Attn

end
-- ==== Proof.LibKeepdims.lean ====
/-
  Layout operations read at an index, for arrays that keep a reduced axis as a unit axis: a shape cast that adds a
  TRAILING unit axis (`[a] → [a, 1]`) or drops a MIDDLE one (`[a, 1, b] → [a, b]`), and the broadcasts of a COLUMN
  (`[a, 1] → [a, b]`) and of a SINGLE ENTRY (`[1, 1] → [a, b]`).  Each says which operand entry the result reads at
  coordinates written out one by one; a cast keeps the row-major position, a broadcast reads coordinate `0` on the
  operand's unit axes.
-/
import Idealize.ShloMosaic.Lib.ValueIdx
import Idealize.ShloMosaic.Lib.Pipeline.Value

noncomputable section

namespace Cert.Attn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1, b]` array cast to `[a, b]` reads, at `(i, j)`, the operand at `(i, 0, j)`: the same row-major position. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A `[1, 1]` array broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn

end
-- ==== Proof.PayloadAt.lean ====
/-
  The tiled program's arithmetic, read at one index over the extended reals.

  Every value the tile step stores is a composition of pointwise operations, layout operations (a cast that adds or
  drops a unit axis, a broadcast of a row, of a column or of a single entry), sums and maxima along one axis, and one
  matrix product.  Read at an index, the pointwise operations act on the entries, the layout operations move the
  index, a sum along an axis is the finite sum over that axis's coordinate, the maximum along an axis is the fold of
  `max` from minus infinity, and the matrix product into a zero accumulator is the sum over the contracted coordinate.
  Put together: the tile's scores are `scoreOf` of the tile's rows, their maximum is `tileMax`, and the three stored
  running quantities are `mStep`, `lStep`, `cStep` of the old ones.
-/
import proofs.«414751_j21079699488857_3_alg».proof.Proof.Gen.KernelIdeal.Skeleton
import proofs.«414751_j21079699488857_3_alg».proof.Proof.Spec
import proofs.«414751_j21079699488857_3_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.Attn

open Idealize.ShloMosaic Idealize.ShloMosaic.ValueIdx Cert.KernelIdeal Cert.KernelIdeal.Gen

/-! ## The values that only move or fill entries -/

theorem pay13_at (x0 : Vec Ideal S1x1024x1024 .f32) (r d : Fin 1024) :
    k0_pay13 (F := Ideal) x0 (ix2 r d) = x0 (ix3 (0 : Fin 1) r d) := by
  unfold k0_pay13
  exact shapeCast_1ab_ab_apply x0 _ r d

theorem pay7_at (v65 : Vec Ideal S1x1 .f32) :
    k0_pay7 v65 (ix3 (0 : Fin 1) (0 : Fin 1) (0 : Fin 1)) = v65 (ix2 (0 : Fin 1) (0 : Fin 1)) := by
  unfold k0_pay7
  exact shapeCast_ab_1ab_apply v65 _ 0 0 0

theorem pay8_at (v69 : Vec Ideal S1x1 .f32) :
    k0_pay8 v69 (ix3 (0 : Fin 1) (0 : Fin 1) (0 : Fin 1)) = v69 (ix2 (0 : Fin 1) (0 : Fin 1)) := by
  unfold k0_pay8
  exact shapeCast_ab_1ab_apply v69 _ 0 0 0

theorem pay9_at (v73 : Vec Ideal S1x1024 .f32) (v74 : Vec Ideal S1x1 .f32) (d : Fin 1024) :
    k0_pay9 v73 v74 (ix3 (0 : Fin 1) (0 : Fin 1) d)
      = Ideal.div (v73 (ix2 (0 : Fin 1) d)) (v74 (ix2 (0 : Fin 1) (0 : Fin 1))) := by
  unfold k0_pay9
  refine (shapeCast_ab_1ab_apply _ _ 0 0 d).trans ?_
  refine (divf_apply _ _ _).trans ?_
  exact congrArg (Ideal.div _) (broadcastTo_11_ab_apply v74 _ 0 d)

theorem pay10_at : (k0_pay10 (F := Ideal)) (ix2 (0 : Fin 1) (0 : Fin 1)) = negBig := by
  unfold k0_pay10
  rw [shapeCast_self]
  rfl

theorem pay11_at : (k0_pay11 (F := Ideal)) (ix2 (0 : Fin 1) (0 : Fin 1)) = zero32 := by
  unfold k0_pay11
  rw [shapeCast_self]
  rfl

theorem pay12_at (d : Fin 1024) : (k0_pay12 (F := Ideal)) (ix2 (0 : Fin 1) d) = zero32 := by
  unfold k0_pay12
  rw [shapeCast_self]
  rfl

/-! ## The running-softmax step -/

/-- The new maximum at its one entry. -/
theorem pay1_at (v32 : FVec Ideal S1x1 .f32) (v33 : Vec Ideal S1x1 .f32) (s : Fin 1024 → EReal)
    (h32 : v32 (ix2 (0 : Fin 1) (0 : Fin 1)) = tileMax s) :
    k0_pay1 v32 v33 (ix2 (0 : Fin 1) (0 : Fin 1)) = mStep (v33 (ix2 (0 : Fin 1) (0 : Fin 1))) s := by
  unfold k0_pay1
  refine (maximumf_apply _ _ _).trans ?_
  rw [h32]
  rfl

/-- The factor that rescales what was accumulated under the old maximum. -/
theorem pay2_at (v32 : FVec Ideal S1x1 .f32) (v33 : Vec Ideal S1x1 .f32) (s : Fin 1024 → EReal)
    (h32 : v32 (ix2 (0 : Fin 1) (0 : Fin 1)) = tileMax s) :
    k0_pay2 v32 v33 (ix2 (0 : Fin 1) (0 : Fin 1)) = corr (v33 (ix2 (0 : Fin 1) (0 : Fin 1))) s := by
  unfold k0_pay2
  show Ideal.exp (v33 (ix2 (0 : Fin 1) (0 : Fin 1)) - k0_pay1 v32 v33 (ix2 (0 : Fin 1) (0 : Fin 1))) = _
  rw [pay1_at v32 v33 s h32]
  rfl

/-- A position's exponential under the new maximum. -/
theorem pay3_at (v27 : FVec Ideal S1024x1 .f32) (v32 : FVec Ideal S1x1 .f32) (v33 : Vec Ideal S1x1 .f32) (s : Fin 1024 → EReal)
    (h27 : ∀ r, v27 (ix2 r (0 : Fin 1)) = s r) (h32 : v32 (ix2 (0 : Fin 1) (0 : Fin 1)) = tileMax s) (r : Fin 1024) :
    k0_pay3 v27 v32 v33 (ix2 r (0 : Fin 1)) = pExp (v33 (ix2 (0 : Fin 1) (0 : Fin 1))) s r := by
  unfold k0_pay3
  show Ideal.exp (v27 (ix2 r (0 : Fin 1)) - broadcastTo S1024x1 (k0_pay1 v32 v33) broadcasts_S1x1_S1024x1 (ix2 r (0 : Fin 1))) = _
  rw [h27 r, broadcastTo_11_ab_apply (k0_pay1 v32 v33) _ r (0 : Fin 1), pay1_at v32 v33 s h32]
  rfl

theorem pay5_at (v32 : FVec Ideal S1x1 .f32) (v33 : Vec Ideal S1x1 .f32) (s : Fin 1024 → EReal)
    (h32 : v32 (ix2 (0 : Fin 1) (0 : Fin 1)) = tileMax s) :
    k0_pay5 v32 v33 (ix2 (0 : Fin 1) (0 : Fin 1)) = mStep (v33 (ix2 (0 : Fin 1) (0 : Fin 1))) s := by
  unfold k0_pay5
  rw [shapeCast_self]
  exact pay1_at v32 v33 s h32

/-- A sum down the one column of a `[1024, 1]` array, at the result's one entry. -/
theorem colSum_at (src : FVec Ideal S1024x1 .f32) (h : S1024x1.Reduces [0] S1) (hφ : FKind.Formats .f32)
    (hacc : (0x00000000#32 : BitVec 32) = FKind.add.neutral .f32 hφ) :
    multiReduction .add [0] S1 src 0x00000000#32 h hφ hacc (ix1 (0 : Fin 1)) = ∑ r : Fin 1024, src (ix2 r (0 : Fin 1)) := by
  refine (Ideal.multiReduction_add_single src 0x00000000#32 h hφ hacc (ix1 (0 : Fin 1))).trans ?_
  show ∑ k : Fin 1024, src (h.lift (ix1 (0 : Fin 1)) k) = _
  refine Finset.sum_congr rfl fun k _ => congrArg src (funext fun c => Fin.ext ?_)
  match c with
  | ⟨0, _⟩ => rfl
  | ⟨1, _⟩ => rfl

/-- A sum down the rows of a `[1024, 1024]` array, at column `d`. -/
theorem rowsSum_at (src : FVec Ideal S1024x1024 .f32) (h : S1024x1024.Reduces [0] S1024) (hφ : FKind.Formats .f32)
    (hacc : (0x00000000#32 : BitVec 32) = FKind.add.neutral .f32 hφ) (d : Fin 1024) :
    multiReduction .add [0] S1024 src 0x00000000#32 h hφ hacc (ix1 d) = ∑ r : Fin 1024, src (ix2 r d) := by
  refine (Ideal.multiReduction_add_single src 0x00000000#32 h hφ hacc (ix1 d)).trans ?_
  show ∑ k : Fin 1024, src (h.lift (ix1 d) k) = _
  refine Finset.sum_congr rfl fun k _ => congrArg src (funext fun c => Fin.ext ?_)
  match c with
  | ⟨0, _⟩ => rfl
  | ⟨1, _⟩ => rfl

/-- A sum along the columns of a `[1024, 1024]` array, at row `r`. -/
theorem colsSum_at (src : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ u : Fin 1024, src (ix2 r u) := by
  refine (Ideal.multiReduction_add_single src 0x00000000#32 h hφ hacc (ix1 r)).trans ?_
  show ∑ k : Fin 1024, src (h.lift (ix1 r) k) = _
  refine Finset.sum_congr rfl fun k _ => congrArg src (funext fun c => Fin.ext ?_)
  match c with
  | ⟨0, _⟩ => rfl
  | ⟨1, _⟩ => rfl

theorem pay4_at (v27 : FVec Ideal S1024x1 .f32) (v32 : FVec Ideal S1x1 .f32) (v33 v42 : Vec Ideal S1x1 .f32) (s : Fin 1024 → EReal)
    (h27 : ∀ r, v27 (ix2 r (0 : Fin 1)) = s r) (h32 : v32 (ix2 (0 : Fin 1) (0 : Fin 1)) = tileMax s) :
    k0_pay4 v27 v32 v33 v42 (ix2 (0 : Fin 1) (0 : Fin 1))
      = lStep (v33 (ix2 (0 : Fin 1) (0 : Fin 1))) (v42 (ix2 (0 : Fin 1) (0 : Fin 1))) s := by
  unfold k0_pay4
  rw [shapeCast_self]
  refine (addf_apply _ _ _).trans ?_
  unfold lStep
  refine congrArg₂ (· + ·) ?_ ?_
  · refine (mulf_apply _ _ _).trans ?_
    rw [pay2_at v32 v33 s h32]
  · refine (shapeCast_a_1a_apply _ _ (0 : Fin 1) (0 : Fin 1)).trans ?_
    refine (colSum_at _ _ _ _).trans ?_
    exact Finset.sum_congr rfl fun r _ => pay3_at v27 v32 v33 s h27 h32 r

theorem pay6_at (v4 : FVec Ideal S1024x1024 .f32) (v27 : FVec Ideal S1024x1 .f32) (v32 : FVec Ideal S1x1 .f32) (v33 : Vec Ideal S1x1 .f32)
    (v55 : Vec Ideal S1x1024 .f32) (s : Fin 1024 → EReal)
    (h27 : ∀ r, v27 (ix2 r (0 : Fin 1)) = s r) (h32 : v32 (ix2 (0 : Fin 1) (0 : Fin 1)) = tileMax s) (d : Fin 1024) :
    k0_pay6 v4 v27 v32 v33 v55 (ix2 (0 : Fin 1) d)
      = cStep (v33 (ix2 (0 : Fin 1) (0 : Fin 1))) (v55 (ix2 (0 : Fin 1) d)) s (fun r => v4 (ix2 r d)) := by
  unfold k0_pay6
  rw [shapeCast_self]
  refine (addf_apply _ _ _).trans ?_
  unfold cStep
  refine congrArg₂ (· + ·) ?_ ?_
  · refine (mulf_apply _ _ _).trans ?_
    rw [broadcastTo_11_ab_apply (k0_pay2 v32 v33) _ (0 : Fin 1) d, pay2_at v32 v33 s h32]
  · refine (shapeCast_a_1a_apply _ _ (0 : Fin 1) d).trans ?_
    refine (rowsSum_at _ _ _ _ d).trans ?_
    refine Finset.sum_congr rfl fun r _ => ?_
    refine (mulf_apply _ _ _).trans ?_
    rw [broadcastTo_a1_ab_apply (k0_pay3 v27 v32 v33) _ r d, pay3_at v27 v32 v33 s h27 h32 r]

/-! ## Pointwise exponential and hyperbolic tangent at an index -/

theorem exp_apply {s : Shape} {φ : FTy} (a : FVec Ideal s φ) (i : s.Idx) : exp a i = Ideal.exp (a i) := rfl
theorem tanh_apply {s : Shape} {φ : FTy} (a : FVec Ideal s φ) (i : s.Idx) : tanh a i = Ideal.tanh (a i) := rfl

/-! ## The matrix product of the tile's rows with the first projection

The product contracts the left factor's axis 1 with the right factor's axis 0 and has no batch axis, so at `(r, u)` the
left index is `(r, k)` and the right index `(k, u)` for the contracted coordinate `k`. -/

theorem lhs_tileDot_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_tileDot_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_tileDot_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_tileDot_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product into the zero accumulator, at `(r, u)`: the sum over the contracted coordinate. -/
theorem tileDot_at (lhs rhs : FVec Ideal S1024x1024 .bf16) (r u : Fin 1024) :
    matmul dot_S1024x1024_S1024x1024_S1024x1024_1_0_0_1_n_n none lhs rhs (constant (F := Ideal) S1024x1024 .f32 0x00000000#32) (ix2 r u)
      = ∑ k : Fin 1024, lhs (ix2 r k) * rhs (ix2 k u) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r u) ((contrEquiv1 dot_S1024x1024_S1024x1024_S1024x1024_1_0_0_1_n_n 1024 rfl rfl).symm k) = ix2 r k := funext fun a => Fin.ext (by
    match a with
    | ⟨0, _⟩ => exact lhs_tileDot_0 _ _
    | ⟨1, _⟩ => exact (lhs_tileDot_1 _ _).trans hk)
  have er : dot_S1024x1024_S1024x1024_S1024x1024_1_0_0_1_n_n.rhsIdx (ix2 r u) ((contrEquiv1 dot_S1024x1024_S1024x1024_S1024x1024_1_0_0_1_n_n 1024 rfl rfl).symm k) = ix2 k u := funext fun a => Fin.ext (by
    match a with
    | ⟨0, _⟩ => exact (rhs_tileDot_0 _ _).trans hk
    | ⟨1, _⟩ => exact rhs_tileDot_1 _ _)
  rw [el, er]

/-! ## The tile's scores and their maximum -/

/-- The scores of the tile's 1024 positions, from the six blocks of a grid point. -/
def tileScores (x0 : Vec Ideal S1x1024x1024 .f32) (x1 : Vec Ideal S1024x1024 .bf16) (x2 : Vec Ideal S1x1024 .f32)
    (x3 : Vec Ideal S1x1x1024 .f32) (x4 : Vec Ideal S1x1024 .f32) (x5 : Vec Ideal S1x1 .f32) : Fin 1024 → EReal :=
  fun r => scoreOf (fun d => x0 (ix3 (0 : Fin 1) r d)) (fun d u => x1 (ix2 d u)) (fun u => x2 (ix2 (0 : Fin 1) u))
    (fun u => x3 (ix3 (0 : Fin 1) (0 : Fin 1) u)) (fun u => x4 (ix2 (0 : Fin 1) u)) (x5 (ix2 (0 : Fin 1) (0 : Fin 1)))

theorem pay14_at (x0 : Vec Ideal S1x1024x1024 .f32) (x1 : Vec Ideal S1024x1024 .bf16) (x2 : Vec Ideal S1x1024 .f32)
    (x3 : Vec Ideal S1x1x1024 .f32) (x4 : Vec Ideal S1x1024 .f32) (x5 : Vec Ideal S1x1 .f32) (r : Fin 1024) :
    k0_pay14 (F := Ideal) x0 x1 x2 x3 x4 x5 (ix2 r (0 : Fin 1)) = tileScores x0 x1 x2 x3 x4 x5 r := by
  unfold k0_pay14
  refine (addf_apply _ _ _).trans ?_
  unfold tileScores scoreOf
  refine congrArg₂ (· + ·) ?_ ?_
  · refine (shapeCast_a_a1_apply _ _ r (0 : Fin 1)).trans ?_
    refine (colsSum_at _ _ _ _ r).trans ?_
    refine Finset.sum_congr rfl fun u _ => ?_
    refine (mulf_apply _ _ _).trans (congrArg₂ (· * ·) ?_ ?_)
    · refine (tanh_apply _ _).trans (congrArg Ideal.tanh ?_)
      refine (addf_apply _ _ _).trans (congrArg₂ (· + ·) ?_ ?_)
      · refine (addf_apply _ _ _).trans (congrArg₂ (· + ·) ?_ ?_)
        · refine (tileDot_at _ _ r u).trans ?_
          refine Finset.sum_congr rfl fun d _ => congrArg₂ (· * ·) ?_ ?_
          · refine (truncf_apply (ψ := .bf16) (k0_pay13 (F := Ideal) x0) bitsLt_bf16_f32 (ix2 r d)).trans ?_
            exact pay13_at x0 r d
          · exact congrFun (shapeCast_self x1 _) _
        · refine (broadcastTo_1b_ab_apply _ _ r u).trans ?_
          exact congrFun (shapeCast_self x2 _) _
      · refine (broadcastTo_1b_ab_apply _ _ r u).trans ?_
        exact shapeCast_1ab_ab_apply x3 _ (0 : Fin 1) u
    · refine (broadcastTo_1b_ab_apply _ _ r u).trans ?_
      exact congrFun (shapeCast_self x4 _) _
  · refine (broadcastTo_11_ab_apply _ _ r (0 : Fin 1)).trans ?_
    exact congrFun (shapeCast_self x5 _) _

theorem pay15_at (x0 : Vec Ideal S1x1024x1024 .f32) (x1 : Vec Ideal S1024x1024 .bf16) (x2 : Vec Ideal S1x1024 .f32)
    (x3 : Vec Ideal S1x1x1024 .f32) (x4 : Vec Ideal S1x1024 .f32) (x5 : Vec Ideal S1x1 .f32) (r : Fin 1024) :
    k0_pay15 (F := Ideal) x0 x1 x2 x3 x4 x5 (ix3 (0 : Fin 1) r (0 : Fin 1)) = tileScores x0 x1 x2 x3 x4 x5 r := by
  unfold k0_pay15
  refine (shapeCast_ab_1ab_apply _ _ (0 : Fin 1) r (0 : Fin 1)).trans ?_
  exact pay14_at x0 x1 x2 x3 x4 x5 r

/-- The maximum down the one column of a `[1024, 1]` array, from minus infinity, at the result's one entry. -/
theorem colMax_at (src : FVec Ideal S1024x1 .f32) (h : S1024x1.Reduces [0] S1) (hφ : FKind.Formats .f32)
    (hacc : (0xFF800000#32 : BitVec 32) = FKind.maximumf.neutral .f32 hφ) :
    multiReduction .maximumf [0] S1 src 0xFF800000#32 h hφ hacc (ix1 (0 : Fin 1)) = tileMax (fun r => src (ix2 r (0 : Fin 1))) := by
  refine (Ideal.multiReduction_maximumf_single src 0xFF800000#32 h hφ hacc (ix1 (0 : Fin 1))).trans ?_
  show (Finset.univ : Finset (Fin 1024)).fold max negInf (src ∘ h.lift (ix1 (0 : Fin 1)))
    = (Finset.univ : Finset (Fin 1024)).fold max negInf (fun r => src (ix2 r (0 : Fin 1)))
  refine congrArg (fun f => (Finset.univ : Finset (Fin 1024)).fold max negInf f) (funext fun k => ?_)
  show src (h.lift (ix1 (0 : Fin 1)) k) = src (ix2 k (0 : Fin 1))
  refine congrArg src (funext fun c => Fin.ext ?_)
  match c with
  | ⟨0, _⟩ => rfl
  | ⟨1, _⟩ => rfl

theorem pay16_at (x0 : Vec Ideal S1x1024x1024 .f32) (x1 : Vec Ideal S1024x1024 .bf16) (x2 : Vec Ideal S1x1024 .f32)
    (x3 : Vec Ideal S1x1x1024 .f32) (x4 : Vec Ideal S1x1024 .f32) (x5 : Vec Ideal S1x1 .f32) :
    k0_pay16 (F := Ideal) x0 x1 x2 x3 x4 x5 (ix2 (0 : Fin 1) (0 : Fin 1)) = tileMax (tileScores x0 x1 x2 x3 x4 x5) := by
  unfold k0_pay16
  refine (shapeCast_a_1a_apply _ _ (0 : Fin 1) (0 : Fin 1)).trans ?_
  refine (colMax_at _ _ _ _).trans ?_
  exact congrArg tileMax (funext fun r => pay14_at x0 x1 x2 x3 x4 x5 r)

end Cert.Attn

end
-- ==== Proof.SpecArr.lean ====
/-
  The score of batch row `b`, position `j`, read off the eight argument arrays at plain coordinates: the one
  function of the arguments that both programs' scores are shown to be.
-/
import proofs.«414751_j21079699488857_3_alg».proof.Proof.Spec
import Idealize.ShloMosaic.Lib.ValueIdx

noncomputable section

namespace Cert.Attn

open Idealize.ShloMosaic Idealize.ShloMosaic.ValueIdx

/-- `a0` the query [32,1024], `a1` the values [32,2048,1024], `a2`, `a3` the first projection [1024,1024], [1024],
    `a4`, `a5` the query projection, `a6` the scoring vector [1024,1], `a7` its bias [1]. -/
def argScore (a0 : (⟨2, ![32, 1024]⟩ : Shape).Idx → EReal) (a1 : (⟨3, ![32, 2048, 1024]⟩ : Shape).Idx → EReal)
    (a2 : (⟨2, ![1024, 1024]⟩ : Shape).Idx → EReal) (a3 : (⟨1, ![1024]⟩ : Shape).Idx → EReal)
    (a4 : (⟨2, ![1024, 1024]⟩ : Shape).Idx → EReal) (a5 : (⟨1, ![1024]⟩ : Shape).Idx → EReal)
    (a6 : (⟨2, ![1024, 1]⟩ : Shape).Idx → EReal) (a7 : (⟨1, ![1]⟩ : Shape).Idx → EReal)
    (b : Fin 32) (j : Fin 2048) : EReal :=
  scoreOf (fun d => a1 (ix3 b j d)) (fun d u => a2 (ix2 d u)) (fun u => a3 (ix1 u))
    (projQ (fun b d => a0 (ix2 b d)) (fun d u => a4 (ix2 d u)) (fun u => a5 (ix1 u)) b)
    (fun u => a6 (ix2 u (0 : Fin 1))) (a7 (ix1 (0 : Fin 1)))

end Cert.Attn

end
-- ==== Proof.Blocks.lean ====
/-
  The six input blocks of the tiled program at a grid point, entry by entry, as entries of the eight argument arrays.

  The grid has 64 points; point `t` is batch row `t / 2`, tile `t % 2`.  The feature block is rows
  `1024 (t % 2) … 1024 (t % 2) + 1023` of batch row `t / 2` of the values; the first projection, its bias, the scoring
  vector and its bias arrive whole (through a format change that is the identity over the extended reals, or through a
  reshape that only renames coordinates); the projected-query block is row `t / 2` of `q · W2 + b2`.
-/
import proofs.«414751_j21079699488857_3_alg».proof.Proof.Gen.KernelIdeal.Frame.Runs
import proofs.«414751_j21079699488857_3_alg».proof.Proof.SpecArr
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.Attn

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)

/-- The batch row of grid point `t`. -/
def rowOf (t : Fin cfg0.N) : Fin 32 := ⟨t.val / 2, by have := t.isLt; have h : cfg0.N = 64 := N_0; omega⟩
/-- The tile of grid point `t`. -/
def tileOf (t : Fin cfg0.N) : Fin 2 := ⟨t.val % 2, Nat.mod_lt _ (by decide)⟩

/-! ## The host-side arrays the windows read, as terms of the arguments -/

open Idealize.ShloMosaic.StableHlo in
/-- The first projection's window reads the argument through a format change. -/
theorem V_v4 : @Eq (FVec Ideal S1024x1024 .bf16) (V m c main_v4) (truncf .bf16 (m ((c.tc : Thread nD τ).loc main_arg2) : FVec Ideal S1024x1024 .f32) bitsLt_bf16_f32) := by
  show StableHlo.after hostOps0 (fun b => m (c, b)) (Proc.devRef .tc main_v4) = _
  after_results

open Idealize.ShloMosaic.StableHlo in
/-- The first bias's window reads the argument reshaped to one row. -/
theorem V_v5 : @Eq (S1x1024.Idx → EReal) (V m c main_v5) (shapeCast S1x1024 (m ((c.tc : Thread nD τ).loc main_arg3) : S1024.Idx → EReal) shapeCasts_S1024_S1x1024) := by
  show StableHlo.after hostOps0 (fun b => m (c, b)) (Proc.devRef .tc main_v5) = _
  after_results
  try rfl

open Idealize.ShloMosaic.StableHlo in
/-- The scoring bias's window reads the argument reshaped to one entry. -/
theorem V_v6 : @Eq (S1x1.Idx → EReal) (V m c main_v6) (shapeCast S1x1 (m ((c.tc : Thread nD τ).loc main_arg7) : S1.Idx → EReal) shapeCasts_S1_S1x1) := by
  show StableHlo.after hostOps0 (fun b => m (c, b)) (Proc.devRef .tc main_v6) = _
  after_results
  try rfl

open Idealize.ShloMosaic.StableHlo in
/-- The scoring vector's window reads the argument, a column, reshaped to one row. -/
theorem V_v8 : @Eq (S1x1024.Idx → EReal) (V m c main_v8) (shapeCast S1x1024 (m ((c.tc : Thread nD τ).loc main_arg6) : S1024x1.Idx → EReal) shapeCasts_S1024x1_S1x1024) := by
  show StableHlo.after hostOps0 (fun b => m (c, b)) (Proc.devRef .tc main_v8) = _
  after_results
  try rfl

/-- The projected query as the host computes it: the product `q · W2` plus the bias broadcast over the rows, with a
    unit axis put in the middle. -/
def hostQ (x0 : FVec Ideal S32x1024 .f32) (x4 : FVec Ideal S1024x1024 .f32) (x5 : FVec Ideal S1024 .f32) : FVec Ideal S32x1x1024 .f32 :=
  shapeCast S32x1x1024
    (addf (F := Ideal) (φ := .f32)
      (Host.dotGeneral (F := Ideal) (φ₁ := .f32) (φ₂ := .f32) dot_S32x1024_S1024x1024_S32x1024_1_0_0_1_n_n none x0 x4)
      (broadcastInDim S32x1024 ![0, 1] bcast_S1x1024_S32x1024_0_1 (broadcastInDim S1x1024 ![1] bcast_S1024_S1x1024_1 x5)))
    shapeCasts_S32x1024_S32x1x1024

open Idealize.ShloMosaic.StableHlo in
/-- The projected-query window reads `hostQ` of the three arguments. -/
theorem V_v7 : @Eq (S32x1x1024.Idx → EReal) (V m c main_v7)
    (hostQ (m ((c.tc : Thread nD τ).loc main_arg0)) (m ((c.tc : Thread nD τ).loc main_arg4)) (m ((c.tc : Thread nD τ).loc main_arg5))) := by
  show StableHlo.after hostOps0 (fun b => m (c, b)) (Proc.devRef .tc main_v7) = _
  after_results
  try rfl

/-! ## Those terms read at an entry -/

/-- A column `[1024, 1]` reshaped to a row `[1, 1024]` reads, at `(0, u)`, the column at `(u, 0)`. -/
theorem colToRow_apply {α : Type} (x : S1024x1.Idx → α) (u : Fin 1024) :
    shapeCast S1x1024 x shapeCasts_S1024x1_S1x1024 (ix2 (0 : Fin 1) u) = x (ix2 u (0 : Fin 1)) :=
  shapeCast_apply x shapeCasts_S1024x1_S1x1024 _ _ (by
    rw [Shape.rowMajor_val_two, Shape.rowMajor_val_two]
    show u.val * 1 + 0 = 0 * 1024 + u.val
    omega)

/-- In the product `q · W2`, the left operand's row is the output's row … -/
theorem lhs_hostQ_0 (i : S32x1024.Idx) (q : dot_S32x1024_S1024x1024_S32x1024_1_0_0_1_n_n.contr.Idx) :
    (dot_S32x1024_S1024x1024_S32x1024_1_0_0_1_n_n.lhsIdx i q 0).val = (i 0).val := by
  unfold DotDims.lhsIdx
  rw [dif_neg (show ¬(0 : Fin S32x1024.rank) ∈ dot_S32x1024_S1024x1024_S32x1024_1_0_0_1_n_n.lhsBatch by decide), dif_pos (show (0 : Fin S32x1024.rank) ∈ dot_S32x1024_S1024x1024_S32x1024_1_0_0_1_n_n.lhsNonContracting by decide)]
  rfl
/-- … its column the contracted feature; -/
theorem lhs_hostQ_1 (i : S32x1024.Idx) (q : dot_S32x1024_S1024x1024_S32x1024_1_0_0_1_n_n.contr.Idx) :
    (dot_S32x1024_S1024x1024_S32x1024_1_0_0_1_n_n.lhsIdx i q 1).val = (q ⟨0, by decide⟩).val :=
  dot_S32x1024_S1024x1024_S32x1024_1_0_0_1_n_n.lhsIdx_val_of_single rfl i q
/-- the right operand's row is the contracted feature … -/
theorem rhs_hostQ_0 (i : S32x1024.Idx) (q : dot_S32x1024_S1024x1024_S32x1024_1_0_0_1_n_n.contr.Idx) :
    (dot_S32x1024_S1024x1024_S32x1024_1_0_0_1_n_n.rhsIdx i q 0).val = (q ⟨0, by decide⟩).val :=
  dot_S32x1024_S1024x1024_S32x1024_1_0_0_1_n_n.rhsIdx_val_of_single rfl i q
/-- … its column the output's column. -/
theorem rhs_hostQ_1 (i : S32x1024.Idx) (q : dot_S32x1024_S1024x1024_S32x1024_1_0_0_1_n_n.contr.Idx) :
    (dot_S32x1024_S1024x1024_S32x1024_1_0_0_1_n_n.rhsIdx i q 1).val = (i 1).val := by
  unfold DotDims.rhsIdx
  rw [dif_neg (show ¬(1 : Fin S1024x1024.rank) ∈ dot_S32x1024_S1024x1024_S32x1024_1_0_0_1_n_n.rhsBatch by decide), dif_pos (show (1 : Fin S1024x1024.rank) ∈ dot_S32x1024_S1024x1024_S32x1024_1_0_0_1_n_n.rhsNonContracting by decide)]
  rfl

/-- The host's product `q · W2` at `(b, u)` is the sum over the contracted feature. -/
theorem dotQ_apply (x0 : FVec Ideal S32x1024 .f32) (x4 : FVec Ideal S1024x1024 .f32) (b : Fin 32) (u : Fin 1024) :
    Host.dotGeneral (F := Ideal) (φ₁ := .f32) (φ₂ := .f32) dot_S32x1024_S1024x1024_S32x1024_1_0_0_1_n_n none x0 x4 (ix2 b u)
      = ∑ d : Fin 1024, x0 (ix2 b d) * x4 (ix2 d u) := by
  simp only [Host.dotGeneral]
  rw [Ideal.dotGeneral_apply, ← Equiv.sum_comp (contrEquiv1 dot_S32x1024_S1024x1024_S32x1024_1_0_0_1_n_n 1024 rfl rfl).symm]
  refine Finset.sum_congr rfl fun k _ => ?_
  have hk := contrEquiv1_symm_val dot_S32x1024_S1024x1024_S32x1024_1_0_0_1_n_n 1024 rfl rfl k
  have el : dot_S32x1024_S1024x1024_S32x1024_1_0_0_1_n_n.lhsIdx (ix2 b u) ((contrEquiv1 dot_S32x1024_S1024x1024_S32x1024_1_0_0_1_n_n 1024 rfl rfl).symm k) = ix2 b k := funext fun a => Fin.ext (by
    match a with
    | ⟨0, _⟩ => exact lhs_hostQ_0 _ _
    | ⟨1, _⟩ => exact (lhs_hostQ_1 _ _).trans hk)
  have er : dot_S32x1024_S1024x1024_S32x1024_1_0_0_1_n_n.rhsIdx (ix2 b u) ((contrEquiv1 dot_S32x1024_S1024x1024_S32x1024_1_0_0_1_n_n 1024 rfl rfl).symm k) = ix2 k u := funext fun a => Fin.ext (by
    match a with
    | ⟨0, _⟩ => exact (rhs_hostQ_0 _ _).trans hk
    | ⟨1, _⟩ => exact rhs_hostQ_1 _ _)
  rw [el, er]

/-- The bias broadcast over the rows reads, at `(b, u)`, the bias at `u`. -/
theorem biasQ_apply (x5 : FVec Ideal S1024 .f32) (b : Fin 32) (u : Fin 1024) :
    broadcastInDim S32x1024 ![0, 1] bcast_S1x1024_S32x1024_0_1 (broadcastInDim S1x1024 ![1] bcast_S1024_S1x1024_1 x5) (ix2 b u) = x5 (ix1 u) := by
  generalize hy : broadcastInDim S1x1024 ![1] bcast_S1024_S1x1024_1 x5 = y
  rw [broadcastInDim_apply _ bcast_S1x1024_S32x1024_0_1 y (ix2 b u) (ix2 (0 : Fin 1) u) (fun a => match a with
    | ⟨0, _⟩ => by show 0 = if (1 : Nat) = 1 then 0 else b.val; rw [if_pos rfl]
    | ⟨1, _⟩ => by show u.val = if (1024 : Nat) = 1 then 0 else u.val; rw [if_neg (by decide)])]
  rw [← hy]
  exact broadcastInDim_apply _ bcast_S1024_S1x1024_1 x5 (ix2 (0 : Fin 1) u) (ix1 u) (fun a => match a with
    | ⟨0, _⟩ => by show u.val = if (1024 : Nat) = 1 then 0 else u.val; rw [if_neg (by decide)])

/-- The host's projected query at `(b, 0, u)` is `(∑ d, q b d * W2 d u) + b2 u`. -/
theorem hostQ_apply (x0 : FVec Ideal S32x1024 .f32) (x4 : FVec Ideal S1024x1024 .f32) (x5 : FVec Ideal S1024 .f32) (b : Fin 32) (u : Fin 1024) :
    hostQ x0 x4 x5 (ix3 b (0 : Fin 1) u) = (∑ d : Fin 1024, x0 (ix2 b d) * x4 (ix2 d u)) + x5 (ix1 u) := by
  unfold hostQ
  rw [shapeCast_apply _ shapeCasts_S32x1024_S32x1x1024 (ix3 b (0 : Fin 1) u) (ix2 b u) (by
    rw [Shape.rowMajor_val_two, Shape.rowMajor_val_three]
    show b.val * 1024 + u.val = (b.val * 1 + 0) * 1024 + u.val
    omega)]
  rw [addf_apply, dotQ_apply, biasQ_apply]

/-! ## Where each window's block sits (the index maps, decided over the grid's 64 points) -/

/-- The feature window: batch row `t / 2`, tile `t % 2`, all features. -/
theorem idx0_facts : ∀ t : Fin cfg0.N, win0_0.index t 0 = t.val / 2 ∧ win0_0.index t 1 = t.val % 2 ∧ win0_0.index t 2 = 0 :=
  (by decide +kernel : ∀ t : Fin grid0.N, win0_0.index t 0 = t.val / 2 ∧ win0_0.index t 1 = t.val % 2 ∧ win0_0.index t 2 = 0)
/-- The first projection's window: the whole array. -/
theorem idx1_facts : ∀ t : Fin cfg0.N, win0_1.index t 0 = 0 ∧ win0_1.index t 1 = 0 :=
  (by decide +kernel : ∀ t : Fin grid0.N, win0_1.index t 0 = 0 ∧ win0_1.index t 1 = 0)
/-- The first bias's window: the whole array. -/
theorem idx2_facts : ∀ t : Fin cfg0.N, win0_2.index t 0 = 0 ∧ win0_2.index t 1 = 0 :=
  (by decide +kernel : ∀ t : Fin grid0.N, win0_2.index t 0 = 0 ∧ win0_2.index t 1 = 0)
/-- The projected-query window: batch row `t / 2`. -/
theorem idx3_facts : ∀ t : Fin cfg0.N, win0_3.index t 0 = t.val / 2 ∧ win0_3.index t 1 = 0 ∧ win0_3.index t 2 = 0 :=
  (by decide +kernel : ∀ t : Fin grid0.N, win0_3.index t 0 = t.val / 2 ∧ win0_3.index t 1 = 0 ∧ win0_3.index t 2 = 0)
/-- The scoring vector's window: the whole array. -/
theorem idx4_facts : ∀ t : Fin cfg0.N, win0_4.index t 0 = 0 ∧ win0_4.index t 1 = 0 :=
  (by decide +kernel : ∀ t : Fin grid0.N, win0_4.index t 0 = 0 ∧ win0_4.index t 1 = 0)
/-- The scoring bias's window: the whole array. -/
theorem idx5_facts : ∀ t : Fin cfg0.N, win0_5.index t 0 = 0 ∧ win0_5.index t 1 = 0 :=
  (by decide +kernel : ∀ t : Fin grid0.N, win0_5.index t 0 = 0 ∧ win0_5.index t 1 = 0)

/-! ## The six blocks, entry by entry -/

/-- The feature block at point `t`: position `r` of tile `t % 2` of batch row `t / 2`. -/
theorem blk0_at (t : Fin cfg0.N) (r d : Fin 1024) :
    (iblk m c 0 t : Vec Ideal S1x1024x1024 .f32) (ix3 (0 : Fin 1) r d) = m ((c.tc : Thread nD τ).loc main_arg1) (ix3 (rowOf t) (pos (tileOf t) r) d) := by
  obtain ⟨h0, h1, h2⟩ := idx0_facts t
  unfold iblk
  rw [View.read_apply]
  show V m c main_arg1 _ = m (c.tc.loc main_arg1) _
  rw [V_main_arg1 m c]
  congr 1
  funext a
  apply Fin.ext
  match a with
  | ⟨0, _⟩ => show win0_0.index t 0 * 1 + 1 * 0 = t.val / 2; rw [h0]; omega
  | ⟨1, _⟩ => show win0_0.index t 1 * 1024 + 1 * r.val = 1024 * (t.val % 2) + r.val; rw [h1]; omega
  | ⟨2, _⟩ => show win0_0.index t 2 * 1024 + 1 * d.val = d.val; rw [h2]; omega

/-- The first projection's block is the argument (the format change is the identity over the extended reals). -/
theorem blk1_at (t : Fin cfg0.N) (d u : Fin 1024) :
    (iblk m c 1 t : Vec Ideal S1024x1024 .bf16) (ix2 d u) = m ((c.tc : Thread nD τ).loc main_arg2) (ix2 d u) := by
  obtain ⟨h0, h1⟩ := idx1_facts t
  unfold iblk
  rw [View.read_apply]
  show V m c main_v4 _ = m (c.tc.loc main_arg2) _
  rw [V_v4 m c, truncf_apply]
  congr 1
  funext a
  apply Fin.ext
  match a with
  | ⟨0, _⟩ => show win0_1.index t 0 * 1024 + 1 * d.val = d.val; rw [h0]; omega
  | ⟨1, _⟩ => show win0_1.index t 1 * 1024 + 1 * u.val = u.val; rw [h1]; omega

/-- The first bias's block is the argument, as one row. -/
theorem blk2_at (t : Fin cfg0.N) (u : Fin 1024) :
    (iblk m c 2 t : Vec Ideal S1x1024 .f32) (ix2 (0 : Fin 1) u) = m ((c.tc : Thread nD τ).loc main_arg3) (ix1 u) := by
  obtain ⟨h0, h1⟩ := idx2_facts t
  unfold iblk
  rw [View.read_apply]
  show V m c main_v5 _ = m (c.tc.loc main_arg3) _
  rw [V_v5 m c]
  refine (congrArg (shapeCast S1x1024 (m (c.tc.loc main_arg3) : S1024.Idx → EReal) shapeCasts_S1024_S1x1024) (funext fun a => Fin.ext ?_)).trans
    (shapeCast_a_1a_apply _ shapeCasts_S1024_S1x1024 (0 : Fin 1) u)
  match a with
  | ⟨0, _⟩ => show win0_2.index t 0 * 1 + 1 * 0 = 0; rw [h0]
  | ⟨1, _⟩ => show win0_2.index t 1 * 1024 + 1 * u.val = u.val; rw [h1]; omega

/-- The projected-query block at point `t` is row `t / 2` of `q · W2 + b2`. -/
theorem blk3_at (t : Fin cfg0.N) (u : Fin 1024) :
    (iblk m c 3 t : Vec Ideal S1x1x1024 .f32) (ix3 (0 : Fin 1) (0 : Fin 1) u)
      = projQ (fun b d => m ((c.tc : Thread nD τ).loc main_arg0) (ix2 b d)) (fun d u => m ((c.tc : Thread nD τ).loc main_arg4) (ix2 d u)) (fun u => m ((c.tc : Thread nD τ).loc main_arg5) (ix1 u)) (rowOf t) u := by
  obtain ⟨h0, h1, h2⟩ := idx3_facts t
  unfold iblk
  rw [View.read_apply]
  show V m c main_v7 _ = _
  rw [V_v7 m c]
  refine (congrArg (hostQ (m (c.tc.loc main_arg0)) (m (c.tc.loc main_arg4)) (m (c.tc.loc main_arg5))) (funext fun a => Fin.ext ?_)).trans
    (hostQ_apply _ _ _ (rowOf t) u)
  match a with
  | ⟨0, _⟩ => show win0_3.index t 0 * 1 + 1 * 0 = t.val / 2; rw [h0]; omega
  | ⟨1, _⟩ => show win0_3.index t 1 * 1 + 1 * 0 = 0; rw [h1]
  | ⟨2, _⟩ => show win0_3.index t 2 * 1024 + 1 * u.val = u.val; rw [h2]; omega

/-- The scoring vector's block is the argument's column, as one row. -/
theorem blk4_at (t : Fin cfg0.N) (u : Fin 1024) :
    (iblk m c 4 t : Vec Ideal S1x1024 .f32) (ix2 (0 : Fin 1) u) = m ((c.tc : Thread nD τ).loc main_arg6) (ix2 u (0 : Fin 1)) := by
  obtain ⟨h0, h1⟩ := idx4_facts t
  unfold iblk
  rw [View.read_apply]
  show V m c main_v8 _ = m (c.tc.loc main_arg6) _
  rw [V_v8 m c]
  refine (congrArg (shapeCast S1x1024 (m (c.tc.loc main_arg6) : S1024x1.Idx → EReal) shapeCasts_S1024x1_S1x1024) (funext fun a => Fin.ext ?_)).trans
    (colToRow_apply _ u)
  match a with
  | ⟨0, _⟩ => show win0_4.index t 0 * 1 + 1 * 0 = 0; rw [h0]
  | ⟨1, _⟩ => show win0_4.index t 1 * 1024 + 1 * u.val = u.val; rw [h1]; omega

/-- The scoring bias's block is the argument's one entry. -/
theorem blk5_at (t : Fin cfg0.N) :
    (iblk m c 5 t : Vec Ideal S1x1 .f32) (ix2 (0 : Fin 1) (0 : Fin 1)) = m ((c.tc : Thread nD τ).loc main_arg7) (ix1 (0 : Fin 1)) := by
  obtain ⟨h0, h1⟩ := idx5_facts t
  unfold iblk
  rw [View.read_apply]
  show V m c main_v6 _ = m (c.tc.loc main_arg7) _
  rw [V_v6 m c]
  refine (congrArg (shapeCast S1x1 (m (c.tc.loc main_arg7) : S1.Idx → EReal) shapeCasts_S1_S1x1) (funext fun a => Fin.ext ?_)).trans
    (shapeCast_a_1a_apply _ shapeCasts_S1_S1x1 (0 : Fin 1) (0 : Fin 1))
  match a with
  | ⟨0, _⟩ => show win0_5.index t 0 * 1 + 1 * 0 = 0; rw [h0]
  | ⟨1, _⟩ => show win0_5.index t 1 * 1 + 1 * 0 = 0; rw [h1]

end Cert.Attn

end
-- ==== Proof.Finals.lean ====
/-
  The four arrays the kernel leaves, entry by entry, as functions of the argument arrays.

  Grid point `t` works on batch row `t / 2`, tile `t % 2`.  Its tile scores are the scores of positions
  `1024 (t % 2) + r` of that row (the input blocks are the arguments read at those coordinates).  Every point writes
  its tile's scores into the score array; the odd points write the row's final maximum, sum and context, which are the
  two-tile running quantities of the row's scores and feature columns.
-/
import proofs.«414751_j21079699488857_3_alg».proof.Proof.PointVals
import proofs.«414751_j21079699488857_3_alg».proof.Proof.PayloadAt
import proofs.«414751_j21079699488857_3_alg».proof.Proof.Blocks

set_option maxRecDepth 16384

noncomputable section

namespace Cert.Attn

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- The scores of batch row `b`, by tile and position in the tile. -/
def rowS (b : Fin 32) : Fin 2 → Fin 1024 → EReal := fun k r => argScore (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b (pos k r)
/-- Feature `d`'s column of batch row `b`, by tile and position in the tile. -/
def rowX (b : Fin 32) (d : Fin 1024) : Fin 2 → Fin 1024 → EReal := fun k r => (m ((c.tc : Thread nD τ).loc main_arg1)) (ix3 b (pos k r) d)

/-- The tile scores of point `t`, as the body computes them from its blocks, -/
abbrev ts (t : Fin cfg0.N) : Fin 1024 → EReal := tileScores (b0 m c t) (b1 m c t) (b2 m c t) (b3 m c t) (b4 m c t) (b5 m c t)
/-- and feature `d`'s column of its tile. -/
abbrev xcol (t : Fin cfg0.N) (d : Fin 1024) : Fin 1024 → EReal := fun r => b0 m c t (ix3 (0 : Fin 1) r d)

/-- A point's tile scores are its row's scores at its tile. -/
theorem ts_eq (t : Fin cfg0.N) : ts m c t = rowS m c (rowOf t) (tileOf t) := by
  funext r
  show tileScores (b0 m c t) (b1 m c t) (b2 m c t) (b3 m c t) (b4 m c t) (b5 m c t) r = argScore (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (rowOf t) (pos (tileOf t) r)
  unfold tileScores argScore
  simp only [b0, b1, b2, b3, b4, b5, blk0_at, blk1_at, blk2_at, blk3_at, blk4_at, blk5_at]

theorem xcol_eq (t : Fin cfg0.N) (d : Fin 1024) : xcol m c t d = rowX m c (rowOf t) d (tileOf t) := by
  funext r
  show b0 m c t (ix3 (0 : Fin 1) r d) = _
  simp only [b0, blk0_at]
  rfl

/-! ## The carried quantities at an index -/

theorem mA_at (t : Fin cfg0.N) : mA m c t (ix2 (0 : Fin 1) (0 : Fin 1)) = mStep negBig (ts m c t) := by
  unfold mA
  rw [pay5_at _ _ (ts m c t) (pay16_at (b0 m c t) (b1 m c t) (b2 m c t) (b3 m c t) (b4 m c t) (b5 m c t)), pay10_at]

theorem lA_at (t : Fin cfg0.N) : lA m c t (ix2 (0 : Fin 1) (0 : Fin 1)) = lStep negBig zero32 (ts m c t) := by
  unfold lA
  rw [pay4_at _ _ _ _ (ts m c t) (fun r => pay14_at (b0 m c t) (b1 m c t) (b2 m c t) (b3 m c t) (b4 m c t) (b5 m c t) r) (pay16_at (b0 m c t) (b1 m c t) (b2 m c t) (b3 m c t) (b4 m c t) (b5 m c t)), pay10_at, pay11_at]

theorem cA_at (t : Fin cfg0.N) (d : Fin 1024) :
    cA m c t (ix2 (0 : Fin 1) d) = cStep negBig zero32 (ts m c t) (xcol m c t d) := by
  unfold cA
  rw [pay6_at _ _ _ _ _ (ts m c t) (fun r => pay14_at (b0 m c t) (b1 m c t) (b2 m c t) (b3 m c t) (b4 m c t) (b5 m c t) r) (pay16_at (b0 m c t) (b1 m c t) (b2 m c t) (b3 m c t) (b4 m c t) (b5 m c t)) d, pay10_at, pay12_at]
  exact congrArg (cStep negBig zero32 (ts m c t)) (funext fun r => pay13_at (b0 m c t) r d)

theorem mB_at (p t : Fin cfg0.N) :
    mB m c p t (ix2 (0 : Fin 1) (0 : Fin 1)) = mStep (mStep negBig (ts m c p)) (ts m c t) := by
  unfold mB
  rw [pay5_at _ _ (ts m c t) (pay16_at (b0 m c t) (b1 m c t) (b2 m c t) (b3 m c t) (b4 m c t) (b5 m c t)), mA_at]

theorem lB_at (p t : Fin cfg0.N) :
    lB m c p t (ix2 (0 : Fin 1) (0 : Fin 1))
      = lStep (mStep negBig (ts m c p)) (lStep negBig zero32 (ts m c p)) (ts m c t) := by
  unfold lB
  rw [pay4_at _ _ _ _ (ts m c t) (fun r => pay14_at (b0 m c t) (b1 m c t) (b2 m c t) (b3 m c t) (b4 m c t) (b5 m c t) r) (pay16_at (b0 m c t) (b1 m c t) (b2 m c t) (b3 m c t) (b4 m c t) (b5 m c t)), mA_at, lA_at]

theorem cB_at (p t : Fin cfg0.N) (d : Fin 1024) :
    cB m c p t (ix2 (0 : Fin 1) d)
      = cStep (mStep negBig (ts m c p)) (cStep negBig zero32 (ts m c p) (xcol m c p d)) (ts m c t) (xcol m c t d) := by
  unfold cB
  rw [pay6_at _ _ _ _ _ (ts m c t) (fun r => pay14_at (b0 m c t) (b1 m c t) (b2 m c t) (b3 m c t) (b4 m c t) (b5 m c t) r) (pay16_at (b0 m c t) (b1 m c t) (b2 m c t) (b3 m c t) (b4 m c t) (b5 m c t)) d, mA_at, cA_at]
  exact congrArg (cStep _ _ (ts m c t)) (funext fun r => pay13_at (b0 m c t) r d)

/-! ## An odd point and the even point before it are the two tiles of one row -/

theorem row_prev (t : Fin cfg0.N) (h1 : t.val % 2 = 1) :
    rowOf (prev t) = rowOf t ∧ tileOf (prev t) = 0 ∧ tileOf t = 1 := by
  refine ⟨Fin.ext ?_, Fin.ext ?_, Fin.ext ?_⟩
  · show (t.val - 1) / 2 = t.val / 2; omega
  · show (t.val - 1) % 2 = 0; omega
  · show t.val % 2 = 1; exact h1

theorem m_final (t : Fin cfg0.N) (h1 : t.val % 2 = 1) :
    mB m c (prev t) t (ix2 (0 : Fin 1) (0 : Fin 1)) = m1 (rowS m c (rowOf t)) := by
  obtain ⟨e1, e2, e3⟩ := row_prev t h1
  rw [mB_at, ts_eq, ts_eq, e1, e2, e3]
  rfl

theorem l_final (t : Fin cfg0.N) (h1 : t.val % 2 = 1) :
    lB m c (prev t) t (ix2 (0 : Fin 1) (0 : Fin 1)) = l1 (rowS m c (rowOf t)) := by
  obtain ⟨e1, e2, e3⟩ := row_prev t h1
  rw [lB_at, ts_eq, ts_eq, e1, e2, e3]
  rfl

theorem c_final (t : Fin cfg0.N) (h1 : t.val % 2 = 1) (d : Fin 1024) :
    cB m c (prev t) t (ix2 (0 : Fin 1) d) = c1 (rowS m c (rowOf t)) (rowX m c (rowOf t) d) := by
  obtain ⟨e1, e2, e3⟩ := row_prev t h1
  rw [cB_at, ts_eq, ts_eq, xcol_eq, xcol_eq, e1, e2, e3]
  rfl

end Cert.Attn

end
-- ==== Proof.Arrays.lean ====
/-
  From blocks to arrays.  Each of the kernel's four output arrays ends holding ONE function of the argument arrays:
  the scores `[32, 2048, 1]` (every grid point writes its tile: block `(t / 2, t % 2, 0)`), and the rows' maxima, sums
  `[32, 1, 1]` and contexts `[32, 1, 1024]` (the odd points write block `(t / 2, 0, 0)`).  What a flushing point writes
  back is that function read through the point's block, and the flushed blocks cover each array.
-/
import proofs.«414751_j21079699488857_3_alg».proof.Proof.Finals

set_option maxRecDepth 16384

noncomputable section

namespace Cert.Attn

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- The output windows' block indices at each grid point, decided over the 64 points. -/
theorem out_idx : ∀ t : Fin cfg0.N,
    (win0_6.index t (0 : Fin 3) = t.val / 2 ∧ win0_6.index t (1 : Fin 3) = t.val % 2 ∧ win0_6.index t (2 : Fin 3) = 0)
    ∧ (win0_7.index t (0 : Fin 3) = t.val / 2 ∧ win0_7.index t (1 : Fin 3) = 0 ∧ win0_7.index t (2 : Fin 3) = 0)
    ∧ (win0_8.index t (0 : Fin 3) = t.val / 2 ∧ win0_8.index t (1 : Fin 3) = 0 ∧ win0_8.index t (2 : Fin 3) = 0)
    ∧ (win0_9.index t (0 : Fin 3) = t.val / 2 ∧ win0_9.index t (1 : Fin 3) = 0 ∧ win0_9.index t (2 : Fin 3) = 0) :=
  (by decide +kernel : ∀ t : Fin grid0.N, _)

/-- The score array: entry `(b, j, 0)` is the score of position `j` of row `b`. -/
def G6 : S32x2048x1.Idx → EReal := fun i => argScore (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) ⟨(i 0).val, (i 0).isLt⟩ ⟨(i 1).val, (i 1).isLt⟩
/-- The maximum array: entry `(b, 0, 0)` is row `b`'s running maximum after both tiles. -/
def G7 : S32x1x1.Idx → EReal := fun i => m1 (rowS m c ⟨(i 0).val, (i 0).isLt⟩)
/-- The sum array: entry `(b, 0, 0)` is row `b`'s running sum after both tiles. -/
def G8 : S32x1x1.Idx → EReal := fun i => l1 (rowS m c ⟨(i 0).val, (i 0).isLt⟩)
/-- The context array: entry `(b, 0, d)` is row `b`'s weighted sum of feature `d` over its sum. -/
def G9 : S32x1x1024.Idx → EReal := fun i =>
  tiledCtx (rowS m c ⟨(i 0).val, (i 0).isLt⟩) (rowX m c ⟨(i 0).val, (i 0).isLt⟩ ⟨(i 2).val, (i 2).isLt⟩)

/-! ## What a flushing point writes back -/

theorem flushed6 (t : Fin cfg0.N) (hf : (cfg0.win 6).flush t = true) :
    (dats m 0 c).flushed 6 t = ((cfg0.win 6).blk t).view.read (Elt Ideal) (G6 m c) := by
  show (cfg0.win 6).cut (grid0.coords t) ((dats m 0 c).after 6 t) = _
  rw [after0_6, score_any m c t]
  obtain ⟨⟨e0, e1, e2⟩, -⟩ := out_idx t
  funext y
  have hy0 : (y 0).val < 1 := (y 0).isLt
  have hy2 : (y 2).val < 1 := (y 2).isLt
  obtain ⟨r, rfl⟩ : ∃ r : Fin 1024, y = ix3 (0 : Fin 1) r (0 : Fin 1) := ⟨⟨(y 1).val, (y 1).isLt⟩, funext fun a => Fin.ext (by
    match a with
    | ⟨0, _⟩ => show (y 0).val = 0; omega
    | ⟨1, _⟩ => rfl
    | ⟨2, _⟩ => show (y 2).val = 0; omega)⟩
  show scoreBlk m c t (ix3 (0 : Fin 1) r (0 : Fin 1)) = G6 m c (((cfg0.win 6).blk t).view.emb (ix3 (0 : Fin 1) r (0 : Fin 1)))
  unfold scoreBlk
  rw [pay15_at]
  show ts m c t r = _
  rw [ts_eq]
  show argScore (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (rowOf t) (pos (tileOf t) r) = argScore (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) _ _
  refine congrArg₂ (argScore (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (Fin.ext ?_) (Fin.ext ?_)
  · show t.val / 2 = win0_6.index t (0 : Fin 3) * 1 + 1 * 0
    omega
  · show 1024 * (t.val % 2) + r.val = win0_6.index t (1 : Fin 3) * 1024 + 1 * r.val
    omega

theorem flushed7 (t : Fin cfg0.N) (hf : (cfg0.win 7).flush t = true) :
    (dats m 0 c).flushed 7 t = ((cfg0.win 7).blk t).view.read (Elt Ideal) (G7 m c) := by
  have h1 : t.val % 2 = 1 := (flush0_7 t).mp hf
  show (cfg0.win 7).cut (grid0.coords t) ((dats m 0 c).after 7 t) = _
  rw [after0_7, odd_m m c t (by omega) h1]
  obtain ⟨-, ⟨e0, e1, e2⟩, -⟩ := out_idx t
  funext y
  have hy0 : (y 0).val < 1 := (y 0).isLt
  have hy1 : (y 1).val < 1 := (y 1).isLt
  have hy2 : (y 2).val < 1 := (y 2).isLt
  obtain rfl : y = ix3 (0 : Fin 1) (0 : Fin 1) (0 : Fin 1) := funext fun a => Fin.ext (by
    match a with
    | ⟨0, _⟩ => show (y 0).val = 0; omega
    | ⟨1, _⟩ => show (y 1).val = 0; omega
    | ⟨2, _⟩ => show (y 2).val = 0; omega)
  show k0_pay7 (mB m c (prev t) t) (ix3 (0 : Fin 1) (0 : Fin 1) (0 : Fin 1)) = G7 m c (((cfg0.win 7).blk t).view.emb (ix3 (0 : Fin 1) (0 : Fin 1) (0 : Fin 1)))
  rw [pay7_at, m_final m c t h1]
  refine congrArg (fun b => m1 (rowS m c b)) (Fin.ext ?_)
  show t.val / 2 = win0_7.index t (0 : Fin 3) * 1 + 1 * 0
  omega

theorem flushed8 (t : Fin cfg0.N) (hf : (cfg0.win 8).flush t = true) :
    (dats m 0 c).flushed 8 t = ((cfg0.win 8).blk t).view.read (Elt Ideal) (G8 m c) := by
  have h1 : t.val % 2 = 1 := (flush0_8 t).mp hf
  show (cfg0.win 8).cut (grid0.coords t) ((dats m 0 c).after 8 t) = _
  rw [after0_8, odd_l m c t (by omega) h1]
  obtain ⟨-, -, ⟨e0, e1, e2⟩, -⟩ := out_idx t
  funext y
  have hy0 : (y 0).val < 1 := (y 0).isLt
  have hy1 : (y 1).val < 1 := (y 1).isLt
  have hy2 : (y 2).val < 1 := (y 2).isLt
  obtain rfl : y = ix3 (0 : Fin 1) (0 : Fin 1) (0 : Fin 1) := funext fun a => Fin.ext (by
    match a with
    | ⟨0, _⟩ => show (y 0).val = 0; omega
    | ⟨1, _⟩ => show (y 1).val = 0; omega
    | ⟨2, _⟩ => show (y 2).val = 0; omega)
  show k0_pay8 (lB m c (prev t) t) (ix3 (0 : Fin 1) (0 : Fin 1) (0 : Fin 1)) = G8 m c (((cfg0.win 8).blk t).view.emb (ix3 (0 : Fin 1) (0 : Fin 1) (0 : Fin 1)))
  rw [pay8_at, l_final m c t h1]
  refine congrArg (fun b => l1 (rowS m c b)) (Fin.ext ?_)
  show t.val / 2 = win0_8.index t (0 : Fin 3) * 1 + 1 * 0
  omega

theorem flushed9 (t : Fin cfg0.N) (hf : (cfg0.win 9).flush t = true) :
    (dats m 0 c).flushed 9 t = ((cfg0.win 9).blk t).view.read (Elt Ideal) (G9 m c) := by
  have h1 : t.val % 2 = 1 := (flush0_9 t).mp hf
  show (cfg0.win 9).cut (grid0.coords t) ((dats m 0 c).after 9 t) = _
  rw [after0_9, odd_ctx m c t (by omega) h1]
  obtain ⟨-, -, -, ⟨e0, e1, e2⟩⟩ := out_idx t
  funext y
  have hy0 : (y 0).val < 1 := (y 0).isLt
  have hy1 : (y 1).val < 1 := (y 1).isLt
  obtain ⟨d, rfl⟩ : ∃ d : Fin 1024, y = ix3 (0 : Fin 1) (0 : Fin 1) d := ⟨⟨(y 2).val, (y 2).isLt⟩, funext fun a => Fin.ext (by
    match a with
    | ⟨0, _⟩ => show (y 0).val = 0; omega
    | ⟨1, _⟩ => show (y 1).val = 0; omega
    | ⟨2, _⟩ => rfl)⟩
  show k0_pay9 (cB m c (prev t) t) (lB m c (prev t) t) (ix3 (0 : Fin 1) (0 : Fin 1) d) = G9 m c (((cfg0.win 9).blk t).view.emb (ix3 (0 : Fin 1) (0 : Fin 1) d))
  rw [pay9_at, c_final m c t h1 d, l_final m c t h1]
  show tiledCtx (rowS m c (rowOf t)) (rowX m c (rowOf t) d) = tiledCtx (rowS m c _) (rowX m c _ _)
  have q0 : rowOf t = ⟨(((cfg0.win 9).blk t).view.emb (ix3 (0 : Fin 1) (0 : Fin 1) d) 0).val, (((cfg0.win 9).blk t).view.emb (ix3 (0 : Fin 1) (0 : Fin 1) d) 0).isLt⟩ := Fin.ext (by
    show t.val / 2 = win0_9.index t (0 : Fin 3) * 1 + 1 * 0
    omega)
  have q2 : d = ⟨(((cfg0.win 9).blk t).view.emb (ix3 (0 : Fin 1) (0 : Fin 1) d) 2).val, (((cfg0.win 9).blk t).view.emb (ix3 (0 : Fin 1) (0 : Fin 1) d) 2).isLt⟩ := Fin.ext (by
    show d.val = win0_9.index t (2 : Fin 3) * 1024 + 1 * d.val
    omega)
  rw [← q0, ← q2]

/-! ## The flushed blocks cover each array, so each array ends holding its function -/

/-- Every entry of the array is in the block of some flushing point. -/
theorem final6 : (dats m 0 c).arrAt 6 cfg0.N = G6 m c :=
  (dats m 0 c).arrAt_eq_of_cover 6 (G6 m c) (flushed6 m c) fun i => by
    have hN : cfg0.N = 64 := N_0
    have h0 : (i 0).val < 32 := (i 0).isLt
    have h1 : (i 1).val < 2048 := (i 1).isLt
    have h2 : (i 2).val < 1 := (i 2).isLt
    have ht : 2 * (i 0).val + (i 1).val / 1024 < cfg0.N := by omega
    obtain ⟨⟨e0, e1, e2⟩, -⟩ := out_idx ⟨2 * (i 0).val + (i 1).val / 1024, ht⟩
    refine ⟨⟨2 * (i 0).val + (i 1).val / 1024, ht⟩, flush0_6 _, ?_⟩
    show i ∈ ((View.whole main_v9_0).slice (win0_6.rect ⟨2 * (i 0).val + (i 1).val / 1024, ht⟩)).set
    rw [View.set_slice_whole, Rect.mem_set_unit]
    intro a
    match a with
    | ⟨0, _⟩ =>
      show win0_6.index ⟨2 * (i 0).val + (i 1).val / 1024, ht⟩ (0 : Fin 3) * 1 ≤ (i 0).val ∧ (i 0).val < win0_6.index ⟨2 * (i 0).val + (i 1).val / 1024, ht⟩ (0 : Fin 3) * 1 + 1
      rw [e0]; dsimp only; omega
    | ⟨1, _⟩ =>
      show win0_6.index ⟨2 * (i 0).val + (i 1).val / 1024, ht⟩ (1 : Fin 3) * 1024 ≤ (i 1).val ∧ (i 1).val < win0_6.index ⟨2 * (i 0).val + (i 1).val / 1024, ht⟩ (1 : Fin 3) * 1024 + 1024
      rw [e1]; dsimp only; omega
    | ⟨2, _⟩ =>
      show win0_6.index ⟨2 * (i 0).val + (i 1).val / 1024, ht⟩ (2 : Fin 3) * 1 ≤ (i 2).val ∧ (i 2).val < win0_6.index ⟨2 * (i 0).val + (i 1).val / 1024, ht⟩ (2 : Fin 3) * 1 + 1
      rw [e2]; dsimp only; omega

/-- Every entry of the array is in the block of some flushing point. -/
theorem final7 : (dats m 0 c).arrAt 7 cfg0.N = G7 m c :=
  (dats m 0 c).arrAt_eq_of_cover 7 (G7 m c) (flushed7 m c) fun i => by
    have hN : cfg0.N = 64 := N_0
    have h0 : (i 0).val < 32 := (i 0).isLt
    have h1 : (i 1).val < 1 := (i 1).isLt
    have h2 : (i 2).val < 1 := (i 2).isLt
    have ht : 2 * (i 0).val + 1 < cfg0.N := by omega
    obtain ⟨-, ⟨e0, e1, e2⟩, -⟩ := out_idx ⟨2 * (i 0).val + 1, ht⟩
    refine ⟨⟨2 * (i 0).val + 1, ht⟩, (flush0_7 _).mpr (by dsimp only; omega), ?_⟩
    show i ∈ ((View.whole main_v9_1).slice (win0_7.rect ⟨2 * (i 0).val + 1, ht⟩)).set
    rw [View.set_slice_whole, Rect.mem_set_unit]
    intro a
    match a with
    | ⟨0, _⟩ =>
      show win0_7.index ⟨2 * (i 0).val + 1, ht⟩ (0 : Fin 3) * 1 ≤ (i 0).val ∧ (i 0).val < win0_7.index ⟨2 * (i 0).val + 1, ht⟩ (0 : Fin 3) * 1 + 1
      rw [e0]; dsimp only; omega
    | ⟨1, _⟩ =>
      show win0_7.index ⟨2 * (i 0).val + 1, ht⟩ (1 : Fin 3) * 1 ≤ (i 1).val ∧ (i 1).val < win0_7.index ⟨2 * (i 0).val + 1, ht⟩ (1 : Fin 3) * 1 + 1
      rw [e1]; dsimp only; omega
    | ⟨2, _⟩ =>
      show win0_7.index ⟨2 * (i 0).val + 1, ht⟩ (2 : Fin 3) * 1 ≤ (i 2).val ∧ (i 2).val < win0_7.index ⟨2 * (i 0).val + 1, ht⟩ (2 : Fin 3) * 1 + 1
      rw [e2]; dsimp only; omega

/-- Every entry of the array is in the block of some flushing point. -/
theorem final8 : (dats m 0 c).arrAt 8 cfg0.N = G8 m c :=
  (dats m 0 c).arrAt_eq_of_cover 8 (G8 m c) (flushed8 m c) fun i => by
    have hN : cfg0.N = 64 := N_0
    have h0 : (i 0).val < 32 := (i 0).isLt
    have h1 : (i 1).val < 1 := (i 1).isLt
    have h2 : (i 2).val < 1 := (i 2).isLt
    have ht : 2 * (i 0).val + 1 < cfg0.N := by omega
    obtain ⟨-, -, ⟨e0, e1, e2⟩, -⟩ := out_idx ⟨2 * (i 0).val + 1, ht⟩
    refine ⟨⟨2 * (i 0).val + 1, ht⟩, (flush0_8 _).mpr (by dsimp only; omega), ?_⟩
    show i ∈ ((View.whole main_v9_2).slice (win0_8.rect ⟨2 * (i 0).val + 1, ht⟩)).set
    rw [View.set_slice_whole, Rect.mem_set_unit]
    intro a
    match a with
    | ⟨0, _⟩ =>
      show win0_8.index ⟨2 * (i 0).val + 1, ht⟩ (0 : Fin 3) * 1 ≤ (i 0).val ∧ (i 0).val < win0_8.index ⟨2 * (i 0).val + 1, ht⟩ (0 : Fin 3) * 1 + 1
      rw [e0]; dsimp only; omega
    | ⟨1, _⟩ =>
      show win0_8.index ⟨2 * (i 0).val + 1, ht⟩ (1 : Fin 3) * 1 ≤ (i 1).val ∧ (i 1).val < win0_8.index ⟨2 * (i 0).val + 1, ht⟩ (1 : Fin 3) * 1 + 1
      rw [e1]; dsimp only; omega
    | ⟨2, _⟩ =>
      show win0_8.index ⟨2 * (i 0).val + 1, ht⟩ (2 : Fin 3) * 1 ≤ (i 2).val ∧ (i 2).val < win0_8.index ⟨2 * (i 0).val + 1, ht⟩ (2 : Fin 3) * 1 + 1
      rw [e2]; dsimp only; omega

/-- Every entry of the array is in the block of some flushing point. -/
theorem final9 : (dats m 0 c).arrAt 9 cfg0.N = G9 m c :=
  (dats m 0 c).arrAt_eq_of_cover 9 (G9 m c) (flushed9 m c) fun i => by
    have hN : cfg0.N = 64 := N_0
    have h0 : (i 0).val < 32 := (i 0).isLt
    have h1 : (i 1).val < 1 := (i 1).isLt
    have h2 : (i 2).val < 1024 := (i 2).isLt
    have ht : 2 * (i 0).val + 1 < cfg0.N := by omega
    obtain ⟨-, -, -, ⟨e0, e1, e2⟩⟩ := out_idx ⟨2 * (i 0).val + 1, ht⟩
    refine ⟨⟨2 * (i 0).val + 1, ht⟩, (flush0_9 _).mpr (by dsimp only; omega), ?_⟩
    show i ∈ ((View.whole main_v9_3).slice (win0_9.rect ⟨2 * (i 0).val + 1, ht⟩)).set
    rw [View.set_slice_whole, Rect.mem_set_unit]
    intro a
    match a with
    | ⟨0, _⟩ =>
      show win0_9.index ⟨2 * (i 0).val + 1, ht⟩ (0 : Fin 3) * 1 ≤ (i 0).val ∧ (i 0).val < win0_9.index ⟨2 * (i 0).val + 1, ht⟩ (0 : Fin 3) * 1 + 1
      rw [e0]; dsimp only; omega
    | ⟨1, _⟩ =>
      show win0_9.index ⟨2 * (i 0).val + 1, ht⟩ (1 : Fin 3) * 1 ≤ (i 1).val ∧ (i 1).val < win0_9.index ⟨2 * (i 0).val + 1, ht⟩ (1 : Fin 3) * 1 + 1
      rw [e1]; dsimp only; omega
    | ⟨2, _⟩ =>
      show win0_9.index ⟨2 * (i 0).val + 1, ht⟩ (2 : Fin 3) * 1024 ≤ (i 2).val ∧ (i 2).val < win0_9.index ⟨2 * (i 0).val + 1, ht⟩ (2 : Fin 3) * 1024 + 1024
      rw [e2]; dsimp only; omega

end Cert.Attn

end
-- ==== Proof.Tail.lean ====
/-
  The two results of the whole program from the four arrays the kernel leaves: the lines after the kernel reshape the
  context array, and turn the scores into weights, `exp (score - m) / l` with the row's maximum and sum broadcast
  along the positions.
-/
import proofs.«414751_j21079699488857_3_alg».proof.Proof.Gen.KernelIdeal.Frame
import Idealize.ShloMosaic.Lib.Pipeline.Value
import Idealize.ShloMosaic.Lib.StableHlo.Run
import Idealize.ShloMosaic.PureOps.Ideal

noncomputable section

namespace Cert.Attn

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The context result: the kernel's context array with its unit axis dropped. -/
theorem tail_ctx :
    Pipeline.afterTail₀ cfgs (dats m) 0 (V0 m) [hostOps1] c main_v10
      = shapeCast S32x1024 ((dats m 0 c).arrAt 9 cfg0.N) shapeCasts_S32x1x1024_S32x1024 := by
  unfold Pipeline.afterTail₀
  show StableHlo.after hostOps1 _ (Proc.devRef .tc main_v10) = _
  after_results
  exact congrArg (fun X => shapeCast S32x1024 X shapeCasts_S32x1x1024_S32x1024)
    (Pipeline.withArrays_arr spec0 launch0.win.arr_inj c (V0 m c) (fun w => (dats m 0 c).arrAt w (cfgs 0).N) 9)

/-- The weights result: the scores less the row's maximum, exponentiated, over the row's sum. -/
theorem tail_w :
    Pipeline.afterTail₀ cfgs (dats m) 0 (V0 m) [hostOps1] c main_v15
      = (Host.divf (F := Ideal) (Host.exp (F := Ideal) (subf (F := Ideal) (((dats m 0 c).arrAt 6 cfg0.N : S32x2048x1.Idx → EReal) : FVec Ideal S32x2048x1 .f32)
            (broadcastInDim S32x2048x1 ![0, 1, 2] bcast_S32x1x1_S32x2048x1_0_1_2 (((dats m 0 c).arrAt 7 cfg0.N : S32x1x1.Idx → EReal) : FVec Ideal S32x1x1 .f32))))
          (broadcastInDim S32x2048x1 ![0, 1, 2] bcast_S32x1x1_S32x2048x1_0_1_2 (((dats m 0 c).arrAt 8 cfg0.N : S32x1x1.Idx → EReal) : FVec Ideal S32x1x1 .f32)) : FVec Ideal S32x2048x1 .f32) := by
  unfold Pipeline.afterTail₀
  show StableHlo.after hostOps1 _ (Proc.devRef .tc main_v15) = _
  after_results
  have e6 : Pipeline.withArrays (cfgs 0).spec c (V0 m c) (fun w => (dats m 0 c).arrAt w (cfgs 0).N) (Proc.tc.devRef main_v9_0)
      = (dats m 0 c).arrAt 6 cfg0.N := Pipeline.withArrays_arr spec0 launch0.win.arr_inj c _ _ 6
  have e7 : Pipeline.withArrays (cfgs 0).spec c (V0 m c) (fun w => (dats m 0 c).arrAt w (cfgs 0).N) (Proc.tc.devRef main_v9_1)
      = (dats m 0 c).arrAt 7 cfg0.N := Pipeline.withArrays_arr spec0 launch0.win.arr_inj c _ _ 7
  have e8 : Pipeline.withArrays (cfgs 0).spec c (V0 m c) (fun w => (dats m 0 c).arrAt w (cfgs 0).N) (Proc.tc.devRef main_v9_2)
      = (dats m 0 c).arrAt 8 cfg0.N := Pipeline.withArrays_arr spec0 launch0.win.arr_inj c _ _ 8
  rw [e6, e7, e8]

end Cert.Attn

end
-- ==== Proof.KernelRes.lean ====
/-
  The kernel program's two results, entry by entry: the context `(b, d)` is row `b`'s two-tile weighted sum of
  feature `d` over its sum, and the weight `(b, 1024 k + r, 0)` is `exp (score - m) / l` with the row's two-tile
  maximum and sum.
-/
import proofs.«414751_j21079699488857_3_alg».proof.Proof.Arrays
import proofs.«414751_j21079699488857_3_alg».proof.Proof.Tail
import proofs.«414751_j21079699488857_3_alg».proof.Proof.LibKeepdims
import Idealize.ShloMosaic.Lib.ValueLayout

noncomputable section

namespace Cert.Attn

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

theorem ker_ctx_at (b : Fin 32) (d : Fin 1024) :
    (Pipeline.afterTail₀ cfgs (dats m) 0 (V0 m) [hostOps1] c main_v10 : S32x1024.Idx → EReal) (ix2 b d)
      = tiledCtx (rowS m c b) (rowX m c b d) := by
  rw [tail_ctx, final9]
  exact shapeCast_a1b_ab_apply (G9 m c) shapeCasts_S32x1x1024_S32x1024 b d

theorem ker_w_at (b : Fin 32) (k : Fin 2) (r : Fin 1024) :
    (Pipeline.afterTail₀ cfgs (dats m) 0 (V0 m) [hostOps1] c main_v15 : S32x2048x1.Idx → EReal) (ix3 b (pos k r) (0 : Fin 1))
      = tiledW (rowS m c b) k r := by
  rw [tail_w, final6, final7, final8]
  show Ideal.div (Ideal.exp (G6 m c (ix3 b (pos k r) (0 : Fin 1))
        - broadcastInDim S32x2048x1 ![0, 1, 2] bcast_S32x1x1_S32x2048x1_0_1_2 (G7 m c) (ix3 b (pos k r) (0 : Fin 1))))
      (broadcastInDim S32x2048x1 ![0, 1, 2] bcast_S32x1x1_S32x2048x1_0_1_2 (G8 m c) (ix3 b (pos k r) (0 : Fin 1))) = _
  rw [broadcastInDim_apply ![0, 1, 2] bcast_S32x1x1_S32x2048x1_0_1_2 (G7 m c) (ix3 b (pos k r) (0 : Fin 1)) (ix3 b (0 : Fin 1) (0 : Fin 1))
      (fun a => by match a with | ⟨0, _⟩ => rfl | ⟨1, _⟩ => rfl | ⟨2, _⟩ => rfl),
    broadcastInDim_apply ![0, 1, 2] bcast_S32x1x1_S32x2048x1_0_1_2 (G8 m c) (ix3 b (pos k r) (0 : Fin 1)) (ix3 b (0 : Fin 1) (0 : Fin 1))
      (fun a => by match a with | ⟨0, _⟩ => rfl | ⟨1, _⟩ => rfl | ⟨2, _⟩ => rfl)]
  rfl

end Cert.Attn

end
-- ==== Proof.RefRead.lean ====
/-
  The reference program's two results at an index, over the extended reals.

  Stage by stage: the score of batch row `b`, position `j` is the score read off the eight argument arrays
  (`argScore`): the first projection's product plus its bias plus the projected query, through the hyperbolic
  tangent, contracted with the scoring vector, plus the scoring bias.  The maximum-reduction over the 2048 positions
  from minus infinity is the fold of `max` over the row's scores, and the maximum taken once more with minus
  infinity is `passM`; the exponentials of the differences are `passE`, their sum from zero `passL`, the
  quotients `passW`, and the sum from zero of the weights times one feature's column `passCtx`.
-/
import proofs.«414751_j21079699488857_3_alg».proof.Defs
import proofs.«414751_j21079699488857_3_alg».proof.Proof.Gen.ReferenceIdeal.Run
import proofs.«414751_j21079699488857_3_alg».proof.Proof.Gen.ReferenceIdeal.Read
import proofs.«414751_j21079699488857_3_alg».proof.Proof.SpecArr
import Idealize.ShloMosaic.Lib.ValueIdx
import Idealize.ShloMosaic.Lib.Pipeline.Value
import Idealize.ShloMosaic.PureOps.Ideal.Laws
import Idealize.ShloMosaic.PureOps.Reduce

noncomputable section

namespace Cert.Attn

open Idealize.ShloMosaic Idealize.ShloMosaic.ValueIdx Cert.ReferenceIdeal

/-! ## The score stage -/

/-- The first projection's product, read at batch row `b`, position `j`, feature `u`. -/
theorem ref_v0_at (x1 : (⟨S32x2048x1024, .f32⟩ : BufTy).Contents (Elt Ideal)) (x2 : (⟨S1024x1024, .f32⟩ : BufTy).Contents (Elt Ideal))
    (b : Fin 32) (j : Fin 2048) (u : Fin 1024) :
    Read.val_main_v0 (F := Ideal) x1 x2 (ix3 b j u) = ∑ d : Fin 1024, x1 (ix3 b j d) * x2 (ix2 d u) := by
  rw [Read.val_main_v0_apply]
  refine Finset.sum_congr rfl fun d _ => ?_
  have e1 : Read.lidx_main_v0 (ix3 b j u) d = ix3 b j d :=
    funext fun a => Fin.ext (by match a with | ⟨0, _⟩ => rfl | ⟨1, _⟩ => rfl | ⟨2, _⟩ => rfl)
  have e2 : Read.ridx_main_v0 (ix3 b j u) d = ix2 d u :=
    funext fun a => Fin.ext (by match a with | ⟨0, _⟩ => rfl | ⟨1, _⟩ => rfl)
  rw [e1, e2]

/-- The first bias, broadcast over rows and positions. -/
theorem ref_v2_at (x3 : (⟨S1024, .f32⟩ : BufTy).Contents (Elt Ideal)) (b : Fin 32) (j : Fin 2048) (u : Fin 1024) :
    Read.val_main_v2 (F := Ideal) x3 (ix3 b j u) = x3 (ix1 u) := by
  rw [Read.val_main_v2_apply, Read.val_main_v1_apply]
  exact congrArg x3 (funext fun a => Fin.ext (by match a with | ⟨0, _⟩ => rfl))

/-- The query's projection read at row `b`, feature `u`. -/
theorem ref_v4_at (x0 : (⟨S32x1024, .f32⟩ : BufTy).Contents (Elt Ideal)) (x4 : (⟨S1024x1024, .f32⟩ : BufTy).Contents (Elt Ideal))
    (b : Fin 32) (u : Fin 1024) :
    Read.val_main_v4 (F := Ideal) x0 x4 (ix2 b u) = ∑ d : Fin 1024, x0 (ix2 b d) * x4 (ix2 d u) := by
  rw [Read.val_main_v4_apply]
  refine Finset.sum_congr rfl fun d _ => ?_
  have e1 : Read.lidx_main_v4 (ix2 b u) d = ix2 b d :=
    funext fun a => Fin.ext (by match a with | ⟨0, _⟩ => rfl | ⟨1, _⟩ => rfl)
  have e2 : Read.ridx_main_v4 (ix2 b u) d = ix2 d u :=
    funext fun a => Fin.ext (by match a with | ⟨0, _⟩ => rfl | ⟨1, _⟩ => rfl)
  rw [e1, e2]

/-- The query's bias, broadcast over rows. -/
theorem ref_v6_at (x5 : (⟨S1024, .f32⟩ : BufTy).Contents (Elt Ideal)) (b : Fin 32) (u : Fin 1024) :
    Read.val_main_v6 (F := Ideal) x5 (ix2 b u) = x5 (ix1 u) := by
  rw [Read.val_main_v6_apply, Read.val_main_v5_apply]
  exact congrArg x5 (funext fun a => Fin.ext (by match a with | ⟨0, _⟩ => rfl))

/-- The projected query. -/
theorem ref_v7_at (x0 : (⟨S32x1024, .f32⟩ : BufTy).Contents (Elt Ideal)) (x4 : (⟨S1024x1024, .f32⟩ : BufTy).Contents (Elt Ideal))
    (x5 : (⟨S1024, .f32⟩ : BufTy).Contents (Elt Ideal)) (b : Fin 32) (u : Fin 1024) :
    Read.val_main_v7 (F := Ideal) x0 x4 x5 (ix2 b u)
      = projQ (fun b d => x0 (ix2 b d)) (fun d u => x4 (ix2 d u)) (fun u => x5 (ix1 u)) b u := by
  rw [Read.val_main_v7_apply, ref_v4_at, ref_v6_at, Ideal.addf_def]
  rfl

/-- The projected query broadcast over positions. -/
theorem ref_v9_at (x0 : (⟨S32x1024, .f32⟩ : BufTy).Contents (Elt Ideal)) (x4 : (⟨S1024x1024, .f32⟩ : BufTy).Contents (Elt Ideal))
    (x5 : (⟨S1024, .f32⟩ : BufTy).Contents (Elt Ideal)) (b : Fin 32) (j : Fin 2048) (u : Fin 1024) :
    Read.val_main_v9 (F := Ideal) x0 x4 x5 (ix3 b j u)
      = projQ (fun b d => x0 (ix2 b d)) (fun d u => x4 (ix2 d u)) (fun u => x5 (ix1 u)) b u := by
  rw [Read.val_main_v9_apply, Read.val_main_v8_apply]
  have e : Read.idx_main_v8 (Read.idx_main_v9 (ix3 b j u)) = ix2 b u :=
    funext fun a => Fin.ext (by match a with | ⟨0, _⟩ => rfl | ⟨1, _⟩ => rfl)
  rw [e, ref_v7_at]

/-- The hyperbolic tangent's argument and value at row `b`, position `j`, feature `u`. -/
theorem ref_v11_at (x0 : (⟨S32x1024, .f32⟩ : BufTy).Contents (Elt Ideal)) (x1 : (⟨S32x2048x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal)) (b : Fin 32) (j : Fin 2048) (u : Fin 1024) :
    Read.val_main_v11 (F := Ideal) x0 x1 x2 x3 x4 x5 (ix3 b j u)
      = Ideal.tanh ((∑ d : Fin 1024, x1 (ix3 b j d) * x2 (ix2 d u)) + x3 (ix1 u)
          + projQ (fun b d => x0 (ix2 b d)) (fun d u => x4 (ix2 d u)) (fun u => x5 (ix1 u)) b u) := by
  rw [Read.val_main_v11_apply, Read.val_main_v10_apply, Read.val_main_v3_apply, ref_v0_at, ref_v2_at, ref_v9_at,
    Ideal.hostUnary_tanh_def, Ideal.addf_def, Ideal.addf_def]

/-- The scoring bias, broadcast everywhere. -/
theorem ref_v14_at (x7 : (⟨S1, .f32⟩ : BufTy).Contents (Elt Ideal)) (b : Fin 32) (j : Fin 2048) :
    Read.val_main_v14 (F := Ideal) x7 (ix3 b j (0 : Fin 1)) = x7 (ix1 (0 : Fin 1)) := by
  rw [Read.val_main_v14_apply, Read.val_main_v13_apply]
  exact congrArg x7 (funext fun a => Fin.ext (by match a with | ⟨0, _⟩ => rfl))

/-- The reference's score of row `b`, position `j`, is the score read off the arguments. -/
theorem ref_v15_at (x0 : (⟨S32x1024, .f32⟩ : BufTy).Contents (Elt Ideal)) (x1 : (⟨S32x2048x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal)) (b : Fin 32) (j : Fin 2048) :
    Read.val_main_v15 (F := Ideal) x0 x1 x2 x3 x4 x5 x6 x7 (ix3 b j (0 : Fin 1)) = argScore x0 x1 x2 x3 x4 x5 x6 x7 b j := by
  rw [Read.val_main_v15_apply, Read.val_main_v12_apply, ref_v14_at, Ideal.addf_def]
  unfold argScore scoreOf
  refine congrArg (· + x7 (ix1 (0 : Fin 1))) (Finset.sum_congr rfl fun u _ => ?_)
  have e1 : Read.lidx_main_v12 (ix3 b j (0 : Fin 1)) u = ix3 b j u :=
    funext fun a => Fin.ext (by match a with | ⟨0, _⟩ => rfl | ⟨1, _⟩ => rfl | ⟨2, _⟩ => rfl)
  have e2 : Read.ridx_main_v12 (ix3 b j (0 : Fin 1)) u = ix2 u (0 : Fin 1) :=
    funext fun a => Fin.ext (by match a with | ⟨0, _⟩ => rfl | ⟨1, _⟩ => rfl)
  rw [e1, e2, ref_v11_at]

/-! ## The maximum over the positions -/

/-- The reduced index (b, 0) with position `k` put back on the dropped axis is (b, k, 0). -/
theorem ref_lift_pos (h : S32x2048x1.Reduces [1] S32x1) (b : Fin 32) (k : Fin 2048) :
    h.lift (ix2 b (0 : Fin 1)) k = ix3 b k (0 : Fin 1) := by
  funext c
  apply Fin.ext
  match c with
  | ⟨0, _⟩ => rfl
  | ⟨1, _⟩ => rfl
  | ⟨2, _⟩ => rfl

/-- The maximum-reduction over the positions, from minus infinity, is the fold of `max` over the row's scores. -/
theorem ref_v16_at (x0 : (⟨S32x1024, .f32⟩ : BufTy).Contents (Elt Ideal)) (x1 : (⟨S32x2048x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal)) (b : Fin 32) :
    Read.val_main_v16 (F := Ideal) x0 x1 x2 x3 x4 x5 x6 x7 (ix2 b (0 : Fin 1))
      = (Finset.univ : Finset (Fin 2048)).fold max negInf (argScore x0 x1 x2 x3 x4 x5 x6 x7 b) := by
  unfold Read.val_main_v16
  generalize hy : Read.val_main_v15 (F := Ideal) x0 x1 x2 x3 x4 x5 x6 x7 = y
  have hR : S32x2048x1.Reduces [1] S32x1 := by decide
  rw [Host.reduce_eq_fold_single (α := Ideal .f32) (FloatOps.maximumf (F := Ideal) (φ := .f32)) y _ _ hR _]
  have hk : ∀ k : Fin 2048, y (hR.lift (ix2 b (0 : Fin 1)) k) = argScore x0 x1 x2 x3 x4 x5 x6 x7 b k := fun k =>
    (congrArg y (ref_lift_pos hR b k)).trans (by rw [← hy]; exact ref_v15_at x0 x1 x2 x3 x4 x5 x6 x7 b k)
  have hf : (y ∘ hR.lift (ix2 b (0 : Fin 1))) = fun k : Fin 2048 => argScore x0 x1 x2 x3 x4 x5 x6 x7 b k := funext fun k => hk k
  exact congrArg (fun f => Finset.fold max negInf f (Finset.univ : Finset (Fin 2048))) hf

/-- The one-pass maximum. -/
theorem ref_v18_at (x0 : (⟨S32x1024, .f32⟩ : BufTy).Contents (Elt Ideal)) (x1 : (⟨S32x2048x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal)) (b : Fin 32) :
    Read.val_main_v18 (F := Ideal) x0 x1 x2 x3 x4 x5 x6 x7 (ix2 b (0 : Fin 1)) = passM (argScore x0 x1 x2 x3 x4 x5 x6 x7 b) := by
  rw [Read.val_main_v18_apply, Read.val_main_v17_apply, Read.val_main_cst_0_apply, ref_v16_at, Ideal.maximumf_def,
    Ideal.ofBits_def]
  rfl

/-- The maximum broadcast back over the positions. -/
theorem ref_v20_at (x0 : (⟨S32x1024, .f32⟩ : BufTy).Contents (Elt Ideal)) (x1 : (⟨S32x2048x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal)) (b : Fin 32) (j : Fin 2048) :
    Read.val_main_v20 (F := Ideal) x0 x1 x2 x3 x4 x5 x6 x7 (ix3 b j (0 : Fin 1)) = passM (argScore x0 x1 x2 x3 x4 x5 x6 x7 b) := by
  rw [Read.val_main_v20_apply, Read.val_main_v19_apply]
  have e : Read.idx_main_v19 (Read.idx_main_v20 (ix3 b j (0 : Fin 1))) = ix2 b (0 : Fin 1) :=
    funext fun a => Fin.ext (by match a with | ⟨0, _⟩ => rfl | ⟨1, _⟩ => rfl)
  rw [e, ref_v18_at]

/-! ## The exponentials, their sum, the weights and the context -/

/-- A position's exponential. -/
theorem ref_v22_at (x0 : (⟨S32x1024, .f32⟩ : BufTy).Contents (Elt Ideal)) (x1 : (⟨S32x2048x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal)) (b : Fin 32) (j : Fin 2048) :
    Read.val_main_v22 (F := Ideal) x0 x1 x2 x3 x4 x5 x6 x7 (ix3 b j (0 : Fin 1)) = passE (argScore x0 x1 x2 x3 x4 x5 x6 x7 b) j := by
  rw [Read.val_main_v22_apply, Read.val_main_v21_apply, ref_v15_at, ref_v20_at, Ideal.hostUnary_exp_def, Ideal.subf_def]
  rfl

/-- The sum of the exponentials. -/
theorem ref_v23_at (x0 : (⟨S32x1024, .f32⟩ : BufTy).Contents (Elt Ideal)) (x1 : (⟨S32x2048x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal)) (b : Fin 32) :
    Read.val_main_v23 (F := Ideal) x0 x1 x2 x3 x4 x5 x6 x7 (ix2 b (0 : Fin 1)) = passL (argScore x0 x1 x2 x3 x4 x5 x6 x7 b) := by
  rw [Read.val_main_v23_apply, Read.val_main_cst_1_apply, Ideal.ofBits_def]
  unfold passL
  refine congrArg (zero32 + ·) (Finset.sum_congr rfl fun k _ => ?_)
  have e : Read.idx_main_v23 (ix2 b (0 : Fin 1)) k = ix3 b k (0 : Fin 1) :=
    funext fun a => Fin.ext (by match a with | ⟨0, _⟩ => rfl | ⟨1, _⟩ => rfl | ⟨2, _⟩ => rfl)
  rw [e, ref_v22_at]

/-- The sum broadcast back over the positions. -/
theorem ref_v25_at (x0 : (⟨S32x1024, .f32⟩ : BufTy).Contents (Elt Ideal)) (x1 : (⟨S32x2048x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal)) (b : Fin 32) (j : Fin 2048) :
    Read.val_main_v25 (F := Ideal) x0 x1 x2 x3 x4 x5 x6 x7 (ix3 b j (0 : Fin 1)) = passL (argScore x0 x1 x2 x3 x4 x5 x6 x7 b) := by
  rw [Read.val_main_v25_apply, Read.val_main_v24_apply]
  have e : Read.idx_main_v24 (Read.idx_main_v25 (ix3 b j (0 : Fin 1))) = ix2 b (0 : Fin 1) :=
    funext fun a => Fin.ext (by match a with | ⟨0, _⟩ => rfl | ⟨1, _⟩ => rfl)
  rw [e, ref_v23_at]

/-- The reference's attention weight of row `b`, position `j`, is the one-pass softmax of the row's scores. -/
theorem v26_at (x0 : (⟨S32x1024, .f32⟩ : BufTy).Contents (Elt Ideal)) (x1 : (⟨S32x2048x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal)) (b : Fin 32) (j : Fin 2048) :
    Cert.ReferenceIdeal.Read.val_main_v26 (F := Ideal) x0 x1 x2 x3 x4 x5 x6 x7 (ix3 b j (0 : Fin 1)) = passW (argScore x0 x1 x2 x3 x4 x5 x6 x7 b) j := by
  rw [Read.val_main_v26_apply, ref_v22_at, ref_v25_at, Ideal.hostDivf_def]
  rfl

/-- A weight times the position's feature. -/
theorem ref_v28_at (x0 : (⟨S32x1024, .f32⟩ : BufTy).Contents (Elt Ideal)) (x1 : (⟨S32x2048x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal)) (b : Fin 32) (j : Fin 2048) (d : Fin 1024) :
    Read.val_main_v28 (F := Ideal) x0 x1 x2 x3 x4 x5 x6 x7 (ix3 b j d) = passW (argScore x0 x1 x2 x3 x4 x5 x6 x7 b) j * x1 (ix3 b j d) := by
  rw [Read.val_main_v28_apply, Read.val_main_v27_apply]
  have e : Read.idx_main_v27 (ix3 b j d) = ix3 b j (0 : Fin 1) :=
    funext fun a => Fin.ext (by match a with | ⟨0, _⟩ => rfl | ⟨1, _⟩ => rfl | ⟨2, _⟩ => rfl)
  rw [e, v26_at, Ideal.mulf_def]

/-- The reference's context entry of row `b`, feature `d`, is the weighted sum of that feature's column. -/
theorem v29_at (x0 : (⟨S32x1024, .f32⟩ : BufTy).Contents (Elt Ideal)) (x1 : (⟨S32x2048x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal)) (b : Fin 32) (d : Fin 1024) :
    Cert.ReferenceIdeal.Read.val_main_v29 (F := Ideal) x0 x1 x2 x3 x4 x5 x6 x7 (ix2 b d)
      = passCtx (argScore x0 x1 x2 x3 x4 x5 x6 x7 b) (fun j => x1 (ix3 b j d)) := by
  rw [Read.val_main_v29_apply, Read.val_main_cst_2_apply, Ideal.ofBits_def]
  unfold passCtx
  refine congrArg (zero32 + ·) (Finset.sum_congr rfl fun k _ => ?_)
  have e : Read.idx_main_v29 (ix2 b d) k = ix3 b k d :=
    funext fun a => Fin.ext (by match a with | ⟨0, _⟩ => rfl | ⟨1, _⟩ => rfl | ⟨2, _⟩ => rfl)
  rw [e, ref_v28_at]

end Cert.Attn

end
-- ==== Proof.AlgBasic.lean ====
/-
  Shared basics for the algebra: the three literals as extended reals, the coercion of a finite real sum,
  and the target forms over the reals (the softmax weight of a position and the context entry of a feature).
-/
import proofs.«414751_j21079699488857_3_alg».proof.Proof.Spec
import Mathlib.Analysis.SpecialFunctions.Exp
import Mathlib.Data.EReal.Operations

noncomputable section

namespace Cert.Attn

open Idealize.ShloMosaic

theorem negInf_eq : negInf = ⊥ := by simp [negInf, Ideal.ofBits, Ideal.ieee]

theorem zero32_eq : zero32 = 0 := Ideal.ofBits_zero_f32

/-- The starting maximum is a real number (its value never matters, only that it is finite). -/
theorem negBig_real : ∃ a : ℝ, negBig = (a : EReal) := by
  unfold negBig Ideal.ofBits Ideal.ieee
  dsimp only
  rw [if_neg (by decide), if_neg (by decide)]
  exact ⟨_, rfl⟩

/-- A finite sum of real numbers, coerced, is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The softmax weight of position `j` over the reals. -/
def smR (S : Fin 2048 → ℝ) (j : Fin 2048) : ℝ := Real.exp (S j) / ∑ k, Real.exp (S k)
/-- The context entry of one feature over the reals: the softmax-weighted sum of its column. -/
def ctxR (S X : Fin 2048 → ℝ) : ℝ := ∑ j, smR S j * X j

end Cert.Attn

end
-- ==== Proof.AlgTiled.lean ====
/-
  The two-tile running softmax over real scores equals the one-pass softmax over the reals.

  With every score a real number, each running maximum is a real number (a maximum of finitely many reals and of
  a real start), so every exponential, product and sum stays real and the coercion to the extended reals can be
  taken once, outside.  After both tiles the running sum is `exp (-a) * ∑ j, exp (S j)` and the running weighted
  sum is `exp (-a) * ∑ j, exp (S j) * X j`, for the real `a` the running maximum ended at; the common factor
  `exp (-a)` cancels in the final quotient, which is why the value of the maximum never matters.
-/
import proofs.«414751_j21079699488857_3_alg».proof.Proof.AlgBasic
import Mathlib.Algebra.BigOperators.Fin
import Mathlib.Algebra.Order.BigOperators.Group.Finset

noncomputable section

namespace Cert.Attn

open Idealize.ShloMosaic

/-! ## Maxima of real scores are real -/

/-- The coercion of the reals into the extended reals commutes with the binary maximum. -/
theorem coe_max_real (x y : ℝ) : ((max x y : ℝ) : EReal) = max (x : EReal) (y : EReal) :=
  EReal.coe_strictMono.monotone.map_max

/-- The maximum, from minus infinity, of finitely many (at least one) real numbers is a real number. -/
theorem fold_max_real {ι : Type*} (g : ι → ℝ) (s : Finset ι) (hs : s.Nonempty) :
    ∃ a : ℝ, s.fold max (⊥ : EReal) (fun i => (g i : EReal)) = (a : EReal) := by
  induction hs using Finset.Nonempty.cons_induction with
  | singleton a => exact ⟨g a, by simp⟩
  | cons a s ha hs ih =>
    obtain ⟨b, hb⟩ := ih
    exact ⟨max (g a) b, by rw [Finset.fold_cons, hb, coe_max_real]⟩

/-- The maximum of a tile of real scores is a real number. -/
theorem tileMax_real (g : Fin 1024 → ℝ) : ∃ a : ℝ, tileMax (fun r => (g r : EReal)) = (a : EReal) := by
  unfold tileMax
  rw [negInf_eq]
  exact fold_max_real g Finset.univ Finset.univ_nonempty

/-! ## One tile over the reals -/

/-- One step of the running softmax from a real maximum over real scores: the new maximum is a real `a'`, and
    the running sum and weighted sum are the real expressions one expects, coerced. -/
theorem step_real (a : ℝ) (g : Fin 1024 → ℝ) :
    ∃ a' : ℝ, mStep (a : EReal) (fun r => (g r : EReal)) = (a' : EReal)
      ∧ (∀ L : ℝ, lStep (a : EReal) (L : EReal) (fun r => (g r : EReal))
            = ((L * Real.exp (a - a') + ∑ r, Real.exp (g r - a') : ℝ) : EReal))
      ∧ (∀ (C : ℝ) (x : Fin 1024 → ℝ),
            cStep (a : EReal) (C : EReal) (fun r => (g r : EReal)) (fun r => (x r : EReal))
              = ((C * Real.exp (a - a') + ∑ r, Real.exp (g r - a') * x r : ℝ) : EReal)) := by
  obtain ⟨t, ht⟩ := tileMax_real g
  have hm : mStep (a : EReal) (fun r => (g r : EReal)) = ((max a t : ℝ) : EReal) := by
    rw [mStep, ht, coe_max_real]
  refine ⟨max a t, hm, ?_, ?_⟩
  · intro L
    simp only [lStep, corr, pExp, hm]
    simp only [← EReal.coe_sub, Ideal.exp_coe, ← EReal.coe_mul, ← coe_sum, ← EReal.coe_add]
  · intro C x
    simp only [cStep, corr, pExp, hm]
    simp only [← EReal.coe_sub, Ideal.exp_coe, ← EReal.coe_mul, ← coe_sum, ← EReal.coe_add]

/-! ## The row of 2048 positions as two tiles of 1024 -/

/-- A sum over the 2048 positions is the sum over the first tile plus the sum over the second. -/
theorem sum_two_tiles (F : Fin 2048 → ℝ) : ∑ j, F j = ∑ r, F (pos 0 r) + ∑ r, F (pos 1 r) := by
  have h := Fin.sum_univ_add (M := ℝ) (a := 1024) (b := 1024) F
  have e0 : ∀ r : Fin 1024, Fin.castAdd 1024 r = pos 0 r := fun r => Fin.ext (by simp [pos])
  have e1 : ∀ r : Fin 1024, Fin.natAdd 1024 r = pos 1 r := fun r => Fin.ext (by simp [pos]; omega)
  simp only [e0, e1] at h
  exact h

/-- Over the reals: what was accumulated on the first tile under the maximum `a0`, rescaled by
    `exp (a0 - a1)`, plus the second tile under `a1`, is `exp (-a1)` times the plain sum. -/
theorem merge_real (f0 f1 w0 w1 : Fin 1024 → ℝ) (ai a0 a1 : ℝ) :
    (0 * Real.exp (ai - a0) + ∑ r, Real.exp (f0 r - a0) * w0 r) * Real.exp (a0 - a1)
        + ∑ r, Real.exp (f1 r - a1) * w1 r
      = Real.exp (-a1) * (∑ r, Real.exp (f0 r) * w0 r + ∑ r, Real.exp (f1 r) * w1 r) := by
  rw [zero_mul, zero_add, Finset.sum_mul, mul_add, Finset.mul_sum, Finset.mul_sum]
  congr 1
  · refine Finset.sum_congr rfl fun r _ => ?_
    rw [Real.exp_sub, Real.exp_sub, Real.exp_neg]
    have h0 := Real.exp_ne_zero a0
    have h1 := Real.exp_ne_zero a1
    field_simp
  · refine Finset.sum_congr rfl fun r _ => ?_
    rw [Real.exp_sub, Real.exp_neg]
    have h1 := Real.exp_ne_zero a1
    field_simp

/-- After both tiles: the running maximum is a real `a`, the running sum is `exp (-a) * ∑ j, exp (S j)` and the
    running weighted sum of a feature column `X` is `exp (-a) * ∑ j, exp (S j) * X j`. -/
theorem tiled_real (S : Fin 2048 → ℝ) :
    ∃ a : ℝ, m1 (fun k r => ((S (pos k r) : ℝ) : EReal)) = (a : EReal)
      ∧ l1 (fun k r => ((S (pos k r) : ℝ) : EReal)) = ((Real.exp (-a) * ∑ j, Real.exp (S j) : ℝ) : EReal)
      ∧ ∀ X : Fin 2048 → ℝ,
          c1 (fun k r => ((S (pos k r) : ℝ) : EReal)) (fun k r => ((X (pos k r) : ℝ) : EReal))
            = ((Real.exp (-a) * ∑ j, Real.exp (S j) * X j : ℝ) : EReal) := by
  obtain ⟨ai, hai⟩ := negBig_real
  obtain ⟨a0, hm0, hl0, hc0⟩ := step_real ai (fun r => S (pos 0 r))
  obtain ⟨a1, hm1, hl1, hc1⟩ := step_real a0 (fun r => S (pos 1 r))
  have hz : zero32 = ((0 : ℝ) : EReal) := by rw [zero32_eq, EReal.coe_zero]
  refine ⟨a1, ?_, ?_, ?_⟩
  · simp only [m1, m0]
    rw [hai, hm0, hm1]
  · simp only [l1, l0, m0]
    rw [hai, hz, hm0, hl0, hl1]
    congr 1
    have h := merge_real (fun r => S (pos 0 r)) (fun r => S (pos 1 r)) (fun _ => 1) (fun _ => 1) ai a0 a1
    simp only [mul_one] at h
    rw [h, sum_two_tiles]
  · intro X
    simp only [c1, c0, m0]
    rw [hai, hz, hm0, hc0, hc1]
    congr 1
    rw [merge_real, sum_two_tiles]

/-! ## The two statements -/

/-- The common factor `exp (-a)` cancels in a weight. -/
theorem weight_real (x a T : ℝ) (hT : T ≠ 0) :
    Real.exp (x - a) * (1 / (Real.exp (-a) * T)) = Real.exp x / T := by
  rw [Real.exp_sub, Real.exp_neg]
  have ha := Real.exp_ne_zero a
  field_simp

/-- The common factor `E` cancels in the context quotient. -/
theorem quot_real (E W T : ℝ) (hE : E ≠ 0) (hT : T ≠ 0) : E * W * (1 / (E * T)) = W / T := by
  field_simp

theorem sum_exp_pos (S : Fin 2048 → ℝ) : (0 : ℝ) < ∑ j, Real.exp (S j) :=
  Finset.sum_pos (fun j _ => Real.exp_pos _) Finset.univ_nonempty

theorem tiledW_eq (S : Fin 2048 → ℝ) (k : Fin 2) (r : Fin 1024) :
    tiledW (fun k r => ((S (pos k r) : ℝ) : EReal)) k r = ((smR S (pos k r) : ℝ) : EReal) := by
  obtain ⟨a, hm, hl, -⟩ := tiled_real S
  have hT : ∑ j, Real.exp (S j) ≠ 0 := (sum_exp_pos S).ne'
  have hne : Real.exp (-a) * ∑ j, Real.exp (S j) ≠ 0 := mul_ne_zero (Real.exp_ne_zero _) hT
  simp only [tiledW]
  rw [hm, hl, Ideal.div_coe hne, ← EReal.coe_sub, Ideal.exp_coe, ← EReal.coe_mul, smR, weight_real _ _ _ hT]

theorem tiledCtx_eq (S X : Fin 2048 → ℝ) :
    tiledCtx (fun k r => ((S (pos k r) : ℝ) : EReal)) (fun k r => ((X (pos k r) : ℝ) : EReal))
      = ((ctxR S X : ℝ) : EReal) := by
  obtain ⟨a, -, hl, hc⟩ := tiled_real S
  have hT : ∑ j, Real.exp (S j) ≠ 0 := (sum_exp_pos S).ne'
  have hne : Real.exp (-a) * ∑ j, Real.exp (S j) ≠ 0 := mul_ne_zero (Real.exp_ne_zero _) hT
  rw [tiledCtx, hl, hc, Ideal.div_coe hne, ← EReal.coe_mul, quot_real _ _ _ (Real.exp_ne_zero _) hT, ctxR]
  simp only [smR, div_mul_eq_mul_div, ← Finset.sum_div]

end Cert.Attn

end
-- ==== Proof.AlgPass.lean ====
/-
  The one-pass softmax and the scores over the reals.

  When every score is a real number, the one-pass program's maximum is a real number `a` (the maximum of a
  nonempty finite family of reals is neither infinity), every exponential is `exp (S j - a)`, their sum is a
  positive real, and the quotient is `exp (S j - a) / ∑ k, exp (S k - a) = exp (S j) / ∑ k, exp (S k)`:
  the softmax does not depend on the number subtracted.  The context entry is then the softmax-weighted sum.

  The projected query and the score of a position are sums, products and hyperbolic tangents of reals, so on
  real inputs they are the coercions of the same expressions over the reals.
-/
import proofs.«414751_j21079699488857_3_alg».proof.Proof.AlgBasic
import Mathlib.Data.Finset.Fold

noncomputable section

namespace Cert.Attn

open Idealize.ShloMosaic

/-! ## The maximum of finitely many reals is a real -/

/-- The maximum, taken from minus infinity, of a nonempty finite family of real numbers is a real number. -/
theorem fold_max_coe_real {ι : Type*} [Fintype ι] [Nonempty ι] (S : ι → ℝ) :
    ∃ a : ℝ, (Finset.univ : Finset ι).fold max (⊥ : EReal) (fun j => ((S j : ℝ) : EReal)) = (a : EReal) := by
  have h1 : (Finset.univ : Finset ι).fold max (⊥ : EReal) (fun j => ((S j : ℝ) : EReal)) ≠ ⊥ := by
    obtain ⟨j0⟩ := ‹Nonempty ι›
    have h : (⊥ : EReal) < (Finset.univ : Finset ι).fold max (⊥ : EReal) (fun j => ((S j : ℝ) : EReal)) :=
      (Finset.lt_fold_max _).2 (Or.inr ⟨j0, Finset.mem_univ _, EReal.bot_lt_coe _⟩)
    exact h.ne'
  have h2 : (Finset.univ : Finset ι).fold max (⊥ : EReal) (fun j => ((S j : ℝ) : EReal)) ≠ ⊤ := by
    have h : (Finset.univ : Finset ι).fold max (⊥ : EReal) (fun j => ((S j : ℝ) : EReal)) < ⊤ :=
      (Finset.fold_max_lt _).2 ⟨bot_lt_top, fun x _ => EReal.coe_lt_top _⟩
    exact h.ne
  exact ⟨_, (EReal.coe_toReal h2 h1).symm⟩

/-- The one-pass maximum of real scores is a real number. -/
theorem passM_real (S : Fin 2048 → ℝ) : ∃ a : ℝ, passM (fun j => ((S j : ℝ) : EReal)) = (a : EReal) := by
  obtain ⟨a, ha⟩ := fold_max_coe_real S
  refine ⟨a, ?_⟩
  unfold passM
  rw [negInf_eq, ha, max_eq_right bot_le]

/-! ## The one-pass exponentials, their sum, the weight and the context -/

/-- With the maximum the real `a`, a position's exponential is `exp (S j - a)`. -/
theorem passE_coe (S : Fin 2048 → ℝ) (a : ℝ) (ha : passM (fun j => ((S j : ℝ) : EReal)) = (a : EReal))
    (j : Fin 2048) : passE (fun j => ((S j : ℝ) : EReal)) j = ((Real.exp (S j - a) : ℝ) : EReal) := by
  unfold passE
  rw [ha]
  show Ideal.exp ((S j : EReal) - (a : EReal)) = _
  rw [← EReal.coe_sub, Ideal.exp_coe]

/-- With the maximum the real `a`, the sum of the exponentials is the real sum of the `exp (S j - a)`. -/
theorem passL_coe (S : Fin 2048 → ℝ) (a : ℝ) (ha : passM (fun j => ((S j : ℝ) : EReal)) = (a : EReal)) :
    passL (fun j => ((S j : ℝ) : EReal)) = ((∑ j, Real.exp (S j - a) : ℝ) : EReal) := by
  unfold passL
  rw [zero32_eq, zero_add, coe_sum]
  exact Finset.sum_congr rfl (fun j _ => passE_coe S a ha j)

/-- The softmax does not depend on the number subtracted from every score. -/
theorem softmax_shift (S : Fin 2048 → ℝ) (a : ℝ) (j : Fin 2048) :
    Real.exp (S j - a) * (1 / ∑ k, Real.exp (S k - a)) = smR S j := by
  unfold smR
  have hpos : 0 < ∑ k, Real.exp (S k) := Finset.sum_pos (fun k _ => Real.exp_pos _) Finset.univ_nonempty
  have hsum : ∑ k, Real.exp (S k - a) = (∑ k, Real.exp (S k)) / Real.exp a := by
    rw [Finset.sum_div]
    exact Finset.sum_congr rfl (fun k _ => Real.exp_sub _ _)
  rw [hsum, Real.exp_sub]
  have hea : Real.exp a ≠ 0 := (Real.exp_pos a).ne'
  field_simp

theorem passW_eq (S : Fin 2048 → ℝ) (j : Fin 2048) :
    passW (fun j => ((S j : ℝ) : EReal)) j = ((smR S j : ℝ) : EReal) := by
  obtain ⟨a, ha⟩ := passM_real S
  unfold passW
  rw [passE_coe S a ha j, passL_coe S a ha]
  have hpos : 0 < ∑ k, Real.exp (S k - a) := Finset.sum_pos (fun k _ => Real.exp_pos _) Finset.univ_nonempty
  rw [Ideal.div_coe hpos.ne', ← EReal.coe_mul, softmax_shift]

theorem passCtx_eq (S X : Fin 2048 → ℝ) :
    passCtx (fun j => ((S j : ℝ) : EReal)) (fun j => ((X j : ℝ) : EReal)) = ((ctxR S X : ℝ) : EReal) := by
  unfold passCtx ctxR
  rw [zero32_eq, zero_add, coe_sum]
  refine Finset.sum_congr rfl (fun j _ => ?_)
  rw [passW_eq, EReal.coe_mul]

/-! ## The projected query and the score on real inputs -/

/-- The projected query over the reals. -/
def projQR (q : Fin 32 → Fin 1024 → ℝ) (W2 : Fin 1024 → Fin 1024 → ℝ) (b2 : Fin 1024 → ℝ) (b : Fin 32) (u : Fin 1024) : ℝ :=
  (∑ d, q b d * W2 d u) + b2 u

theorem projQ_coe (q : Fin 32 → Fin 1024 → ℝ) (W2 : Fin 1024 → Fin 1024 → ℝ) (b2 : Fin 1024 → ℝ) (b : Fin 32) (u : Fin 1024) :
    projQ (fun b d => ((q b d : ℝ) : EReal)) (fun d u => ((W2 d u : ℝ) : EReal)) (fun u => ((b2 u : ℝ) : EReal)) b u = ((projQR q W2 b2 b u : ℝ) : EReal) := by
  unfold projQ projQR
  simp only [EReal.coe_add, coe_sum, EReal.coe_mul]

/-- The score of a position over the reals. -/
def scoreR (xrow : Fin 1024 → ℝ) (W1 : Fin 1024 → Fin 1024 → ℝ) (b1 pq vrow : Fin 1024 → ℝ) (bv : ℝ) : ℝ :=
  (∑ u, Real.tanh ((∑ d, xrow d * W1 d u) + b1 u + pq u) * vrow u) + bv

theorem scoreOf_coe (xrow : Fin 1024 → ℝ) (W1 : Fin 1024 → Fin 1024 → ℝ) (b1 pq vrow : Fin 1024 → ℝ) (bv : ℝ) :
    scoreOf (fun d => ((xrow d : ℝ) : EReal)) (fun d u => ((W1 d u : ℝ) : EReal)) (fun u => ((b1 u : ℝ) : EReal))
      (fun u => ((pq u : ℝ) : EReal)) (fun u => ((vrow u : ℝ) : EReal)) ((bv : ℝ) : EReal) = ((scoreR xrow W1 b1 pq vrow bv : ℝ) : EReal) := by
  unfold scoreOf scoreR
  simp only [EReal.coe_add, coe_sum, EReal.coe_mul, ← Ideal.tanh_coe]

end Cert.Attn

end
-- ==== Proof.Bridge.lean ====
/-
  Why the two programs agree.  With every argument entry a real number, every score is a real number, and the softmax
  of real scores does not depend on which real number is subtracted before exponentiating: the one-pass program subtracts
  the row's true maximum, the tiled program its running maximum (which started from a finite, very negative number and
  need not be the true maximum), and both give `exp (s j) / ∑ exp (s k)`; likewise both contexts are the sum of the
  feature column weighted by that quotient.
-/
import proofs.«414751_j21079699488857_3_alg».proof.Proof.SpecArr
import proofs.«414751_j21079699488857_3_alg».proof.Proof.AlgTiled
import proofs.«414751_j21079699488857_3_alg».proof.Proof.AlgPass

noncomputable section

namespace Cert.Attn

open Idealize.ShloMosaic Idealize.ShloMosaic.ValueIdx

/-- The real score of row `b`, position `j`, of real-valued arguments. -/
def argScoreR (R0 : (⟨2, ![32, 1024]⟩ : Shape).Idx → ℝ) (R1 : (⟨3, ![32, 2048, 1024]⟩ : Shape).Idx → ℝ) (R2 : (⟨2, ![1024, 1024]⟩ : Shape).Idx → ℝ) (R3 : (⟨1, ![1024]⟩ : Shape).Idx → ℝ) (R4 : (⟨2, ![1024, 1024]⟩ : Shape).Idx → ℝ) (R5 : (⟨1, ![1024]⟩ : Shape).Idx → ℝ)
    (R6 : (⟨2, ![1024, 1]⟩ : Shape).Idx → ℝ) (R7 : (⟨1, ![1]⟩ : Shape).Idx → ℝ) (b : Fin 32) (j : Fin 2048) : ℝ :=
  scoreR (fun d => R1 (ix3 b j d)) (fun d u => R2 (ix2 d u)) (fun u => R3 (ix1 u))
    (projQR (fun b d => R0 (ix2 b d)) (fun d u => R4 (ix2 d u)) (fun u => R5 (ix1 u)) b)
    (fun u => R6 (ix2 u (0 : Fin 1))) (R7 (ix1 (0 : Fin 1)))

/-- Real arguments have real scores. -/
theorem argScore_coe (R0 : (⟨2, ![32, 1024]⟩ : Shape).Idx → ℝ) (R1 : (⟨3, ![32, 2048, 1024]⟩ : Shape).Idx → ℝ) (R2 : (⟨2, ![1024, 1024]⟩ : Shape).Idx → ℝ) (R3 : (⟨1, ![1024]⟩ : Shape).Idx → ℝ) (R4 : (⟨2, ![1024, 1024]⟩ : Shape).Idx → ℝ) (R5 : (⟨1, ![1024]⟩ : Shape).Idx → ℝ)
    (R6 : (⟨2, ![1024, 1]⟩ : Shape).Idx → ℝ) (R7 : (⟨1, ![1]⟩ : Shape).Idx → ℝ) (b : Fin 32) (j : Fin 2048) :
    argScore (fun i => ((R0 i : ℝ) : EReal)) (fun i => ((R1 i : ℝ) : EReal)) (fun i => ((R2 i : ℝ) : EReal)) (fun i => ((R3 i : ℝ) : EReal))
      (fun i => ((R4 i : ℝ) : EReal)) (fun i => ((R5 i : ℝ) : EReal)) (fun i => ((R6 i : ℝ) : EReal)) (fun i => ((R7 i : ℝ) : EReal)) b j
      = ((argScoreR R0 R1 R2 R3 R4 R5 R6 R7 b j : ℝ) : EReal) := by
  unfold argScore argScoreR
  have hq : projQ (fun b d => ((R0 (ix2 b d) : ℝ) : EReal)) (fun d u => ((R4 (ix2 d u) : ℝ) : EReal)) (fun u => ((R5 (ix1 u) : ℝ) : EReal)) b
      = fun u => ((projQR (fun b d => R0 (ix2 b d)) (fun d u => R4 (ix2 d u)) (fun u => R5 (ix1 u)) b u : ℝ) : EReal) :=
    funext fun u => projQ_coe (fun b d => R0 (ix2 b d)) (fun d u => R4 (ix2 d u)) (fun u => R5 (ix1 u)) b u
  rw [hq]
  exact scoreOf_coe (fun d => R1 (ix3 b j d)) (fun d u => R2 (ix2 d u)) (fun u => R3 (ix1 u)) _ (fun u => R6 (ix2 u (0 : Fin 1))) (R7 (ix1 (0 : Fin 1)))

/-- The attention weights agree. -/
theorem weights_agree (a0 : (⟨2, ![32, 1024]⟩ : Shape).Idx → EReal) (a1 : (⟨3, ![32, 2048, 1024]⟩ : Shape).Idx → EReal) (a2 : (⟨2, ![1024, 1024]⟩ : Shape).Idx → EReal) (a3 : (⟨1, ![1024]⟩ : Shape).Idx → EReal) (a4 : (⟨2, ![1024, 1024]⟩ : Shape).Idx → EReal)
    (a5 : (⟨1, ![1024]⟩ : Shape).Idx → EReal) (a6 : (⟨2, ![1024, 1]⟩ : Shape).Idx → EReal) (a7 : (⟨1, ![1]⟩ : Shape).Idx → EReal)
    (h0 : ∃ R : (⟨2, ![32, 1024]⟩ : Shape).Idx → ℝ, a0 = fun i => ((R i : ℝ) : EReal)) (h1 : ∃ R : (⟨3, ![32, 2048, 1024]⟩ : Shape).Idx → ℝ, a1 = fun i => ((R i : ℝ) : EReal))
    (h2 : ∃ R : (⟨2, ![1024, 1024]⟩ : Shape).Idx → ℝ, a2 = fun i => ((R i : ℝ) : EReal)) (h3 : ∃ R : (⟨1, ![1024]⟩ : Shape).Idx → ℝ, a3 = fun i => ((R i : ℝ) : EReal))
    (h4 : ∃ R : (⟨2, ![1024, 1024]⟩ : Shape).Idx → ℝ, a4 = fun i => ((R i : ℝ) : EReal)) (h5 : ∃ R : (⟨1, ![1024]⟩ : Shape).Idx → ℝ, a5 = fun i => ((R i : ℝ) : EReal))
    (h6 : ∃ R : (⟨2, ![1024, 1]⟩ : Shape).Idx → ℝ, a6 = fun i => ((R i : ℝ) : EReal)) (h7 : ∃ R : (⟨1, ![1]⟩ : Shape).Idx → ℝ, a7 = fun i => ((R i : ℝ) : EReal))
    (b : Fin 32) (k : Fin 2) (r : Fin 1024) :
    tiledW (fun k r => argScore a0 a1 a2 a3 a4 a5 a6 a7 b (pos k r)) k r = passW (argScore a0 a1 a2 a3 a4 a5 a6 a7 b) (pos k r) := by
  obtain ⟨R0, rfl⟩ := h0; obtain ⟨R1, rfl⟩ := h1; obtain ⟨R2, rfl⟩ := h2; obtain ⟨R3, rfl⟩ := h3
  obtain ⟨R4, rfl⟩ := h4; obtain ⟨R5, rfl⟩ := h5; obtain ⟨R6, rfl⟩ := h6; obtain ⟨R7, rfl⟩ := h7
  have hS : argScore (fun i => ((R0 i : ℝ) : EReal)) (fun i => ((R1 i : ℝ) : EReal)) (fun i => ((R2 i : ℝ) : EReal)) (fun i => ((R3 i : ℝ) : EReal))
      (fun i => ((R4 i : ℝ) : EReal)) (fun i => ((R5 i : ℝ) : EReal)) (fun i => ((R6 i : ℝ) : EReal)) (fun i => ((R7 i : ℝ) : EReal)) b
      = fun j => ((argScoreR R0 R1 R2 R3 R4 R5 R6 R7 b j : ℝ) : EReal) := funext fun j => argScore_coe R0 R1 R2 R3 R4 R5 R6 R7 b j
  rw [hS]
  exact (tiledW_eq (argScoreR R0 R1 R2 R3 R4 R5 R6 R7 b) k r).trans (passW_eq (argScoreR R0 R1 R2 R3 R4 R5 R6 R7 b) (pos k r)).symm

/-- The contexts agree. -/
theorem ctx_agree (a0 : (⟨2, ![32, 1024]⟩ : Shape).Idx → EReal) (a1 : (⟨3, ![32, 2048, 1024]⟩ : Shape).Idx → EReal) (a2 : (⟨2, ![1024, 1024]⟩ : Shape).Idx → EReal) (a3 : (⟨1, ![1024]⟩ : Shape).Idx → EReal) (a4 : (⟨2, ![1024, 1024]⟩ : Shape).Idx → EReal)
    (a5 : (⟨1, ![1024]⟩ : Shape).Idx → EReal) (a6 : (⟨2, ![1024, 1]⟩ : Shape).Idx → EReal) (a7 : (⟨1, ![1]⟩ : Shape).Idx → EReal)
    (h0 : ∃ R : (⟨2, ![32, 1024]⟩ : Shape).Idx → ℝ, a0 = fun i => ((R i : ℝ) : EReal)) (h1 : ∃ R : (⟨3, ![32, 2048, 1024]⟩ : Shape).Idx → ℝ, a1 = fun i => ((R i : ℝ) : EReal))
    (h2 : ∃ R : (⟨2, ![1024, 1024]⟩ : Shape).Idx → ℝ, a2 = fun i => ((R i : ℝ) : EReal)) (h3 : ∃ R : (⟨1, ![1024]⟩ : Shape).Idx → ℝ, a3 = fun i => ((R i : ℝ) : EReal))
    (h4 : ∃ R : (⟨2, ![1024, 1024]⟩ : Shape).Idx → ℝ, a4 = fun i => ((R i : ℝ) : EReal)) (h5 : ∃ R : (⟨1, ![1024]⟩ : Shape).Idx → ℝ, a5 = fun i => ((R i : ℝ) : EReal))
    (h6 : ∃ R : (⟨2, ![1024, 1]⟩ : Shape).Idx → ℝ, a6 = fun i => ((R i : ℝ) : EReal)) (h7 : ∃ R : (⟨1, ![1]⟩ : Shape).Idx → ℝ, a7 = fun i => ((R i : ℝ) : EReal))
    (b : Fin 32) (d : Fin 1024) :
    tiledCtx (fun k r => argScore a0 a1 a2 a3 a4 a5 a6 a7 b (pos k r)) (fun k r => a1 (ix3 b (pos k r) d))
      = passCtx (argScore a0 a1 a2 a3 a4 a5 a6 a7 b) (fun j => a1 (ix3 b j d)) := by
  obtain ⟨R0, rfl⟩ := h0; obtain ⟨R1, rfl⟩ := h1; obtain ⟨R2, rfl⟩ := h2; obtain ⟨R3, rfl⟩ := h3
  obtain ⟨R4, rfl⟩ := h4; obtain ⟨R5, rfl⟩ := h5; obtain ⟨R6, rfl⟩ := h6; obtain ⟨R7, rfl⟩ := h7
  have hS : argScore (fun i => ((R0 i : ℝ) : EReal)) (fun i => ((R1 i : ℝ) : EReal)) (fun i => ((R2 i : ℝ) : EReal)) (fun i => ((R3 i : ℝ) : EReal))
      (fun i => ((R4 i : ℝ) : EReal)) (fun i => ((R5 i : ℝ) : EReal)) (fun i => ((R6 i : ℝ) : EReal)) (fun i => ((R7 i : ℝ) : EReal)) b
      = fun j => ((argScoreR R0 R1 R2 R3 R4 R5 R6 R7 b j : ℝ) : EReal) := funext fun j => argScore_coe R0 R1 R2 R3 R4 R5 R6 R7 b j
  rw [hS]
  exact (tiledCtx_eq (argScoreR R0 R1 R2 R3 R4 R5 R6 R7 b) (fun j => R1 (ix3 b j d))).trans
    (passCtx_eq (argScoreR R0 R1 R2 R3 R4 R5 R6 R7 b) (fun j => R1 (ix3 b j d))).symm

/-- Every position of a row is a position of one of its two tiles. -/
theorem pos_div_mod (j : Fin 2048) : pos ⟨j.val / 1024, by have := j.isLt; omega⟩ ⟨j.val % 1024, Nat.mod_lt _ (by decide)⟩ = j :=
  Fin.ext (by show 1024 * (j.val / 1024) + j.val % 1024 = j.val; omega)

end Cert.Attn

end
-- ==== Proof.Finite.lean ====
/-
  From the precondition to real-valued arguments.  The precondition says, of each of the eight float arrays, that
  every entry's absolute value is strictly below plus infinity, the eight conjunctions taken together.  Over the
  extended reals an entry `x` with `max x (-x) < ⊤` is neither `⊤` nor `⊥`, hence the coercion of a real number;
  choosing that real at every index gives a real-valued array of which the argument is the coercion.
-/
import proofs.«414751_j21079699488857_3_alg».proof.Pre_finite_inputs
import proofs.«414751_j21079699488857_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

noncomputable section

namespace Cert.Attn

open Idealize.ShloMosaic Cert.Pre_finite_inputs

/-- The rank-0 shape has exactly one index. -/
instance subsingleton_S_Idx : Subsingleton S_.Idx := ⟨fun a b => funext fun d => d.elim0⟩

/-- The bit pattern the entries are compared against is plus infinity. -/
theorem posInf_eq : Ideal.ofBits .f32 0x7F800000#32 = (⊤ : EReal) := by simp [Ideal.ofBits, Ideal.ieee]

/-- An extended real whose absolute value compares strictly below plus infinity is a real number. -/
theorem real_of_abs_lt (x : EReal)
    (h : Ideal.cmp .olt (max x (-x)) (Ideal.ofBits .f32 0x7F800000#32) = 1#1) : ∃ r : ℝ, x = (r : EReal) := by
  rw [posInf_eq] at h
  induction x using EReal.rec with
  | bot => exact absurd h (by simp [Ideal.cmp])
  | top => exact absurd h (by simp [Ideal.cmp])
  | coe r => exact ⟨r, rfl⟩

/-- An array every entry of whose absolute value compares below the splat of plus infinity, the comparisons
    and-reduced over all axes to 1, is the coercion of a real-valued array. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
          (constantI S_ 1 1#1) hr hu ValueIdx.ix0 = 1#1) :
    ∃ A : s.Idx → ℝ, a = fun i => ((A i : ℝ) : EReal) := by
  have hall : ∀ i : s.Idx, ∃ r : ℝ, a i = (r : EReal) := fun i => by
    have hi := Host.reduce_andi_all _ _ hr hu ValueIdx.ix0 e i
    refine real_of_abs_lt (a i) ?_
    rw [← hi]
    show _ = Ideal.cmp .olt (max (a i) (-(a i))) (broadcastInDim s ![] hb (constant (F := Ideal) S_ .f32 0x7F800000#32) i)
    rw [ValueIdx.broadcastInDim_scalar_apply]
    rfl
  choose A hA using hall
  exact ⟨A, funext hA⟩

/-- Under the precondition every entry of every argument array is a real number. -/
theorem real_of_pre (a0 : FVec Ideal S32x1024 .f32) (a1 : FVec Ideal S32x2048x1024 .f32) (a2 : FVec Ideal S1024x1024 .f32) (a3 : FVec Ideal S1024 .f32) (a4 : FVec Ideal S1024x1024 .f32) (a5 : FVec Ideal S1024 .f32) (a6 : FVec Ideal S1024x1 .f32) (a7 : FVec Ideal S1 .f32)
    (h : Cert.Pre_finite_inputs.fn (F := Ideal) a0 a1 a2 a3 a4 a5 a6 a7 = fun _ => 1#1) :
    (∃ A : S32x1024.Idx → ℝ, a0 = fun i => ((A i : ℝ) : EReal)) ∧ (∃ A : S32x2048x1024.Idx → ℝ, a1 = fun i => ((A i : ℝ) : EReal))
    ∧ (∃ A : S1024x1024.Idx → ℝ, a2 = fun i => ((A i : ℝ) : EReal)) ∧ (∃ A : S1024.Idx → ℝ, a3 = fun i => ((A i : ℝ) : EReal))
    ∧ (∃ A : S1024x1024.Idx → ℝ, a4 = fun i => ((A i : ℝ) : EReal)) ∧ (∃ A : S1024.Idx → ℝ, a5 = fun i => ((A i : ℝ) : EReal))
    ∧ (∃ A : S1024x1.Idx → ℝ, a6 = fun i => ((A i : ℝ) : EReal)) ∧ (∃ A : S1.Idx → ℝ, a7 = fun i => ((A i : ℝ) : EReal)) := by
  have h0 := congrFun h ValueIdx.ix0
  dsimp only [fn, fn_part1, fn_part2, Idealize.ShloMosaic.andi] at h0
  simp only [IntOp.andi_eq_one] at h0
  obtain ⟨⟨⟨⟨⟨⟨⟨e0, e1⟩, e2⟩, e3⟩, e4⟩, e5⟩, e6⟩, e7⟩ := h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7⟩

end Cert.Attn

end
-- ==== Proof.lean ====
/-
  The proof of `Cert.Claim`: additive attention over two tiles of the sequence against its one-pass form.

  The three frames are the generated ones (the reference's is its run with the results dropped).  The ideal pass
  rewrote nothing, so `preserves` is trivial.  For `algebraic`: the kernel program's run ends with the context at
  `tiledCtx` and the weights at `tiledW` of each batch row's scores (the kernel's four arrays read block by block,
  then the two lines after the kernel), the reference's with `passCtx` and `passW` of the same scores of arguments
  that agree; the precondition makes every argument entry a real number, and over real scores the two softmax forms
  are one (the subtracted maximum cancels).
-/
import proofs.«414751_j21079699488857_3_alg».proof.Defs
import proofs.«414751_j21079699488857_3_alg».proof.Proof.Gen.Kernel
import proofs.«414751_j21079699488857_3_alg».proof.Proof.Gen.Kernel.Frame
import proofs.«414751_j21079699488857_3_alg».proof.Proof.Gen.KernelIdeal
import proofs.«414751_j21079699488857_3_alg».proof.Proof.Gen.KernelIdeal.Frame
import proofs.«414751_j21079699488857_3_alg».proof.Proof.Gen.ReferenceIdeal
import proofs.«414751_j21079699488857_3_alg».proof.Proof.Gen.ReferenceIdeal.Run
import proofs.«414751_j21079699488857_3_alg».proof.Proof.Gen.ReferenceIdeal.Read
import proofs.«414751_j21079699488857_3_alg».proof.Proof.Gen.Pre_finite_inputs
import proofs.«414751_j21079699488857_3_alg».proof.Proof.KernelRes
import proofs.«414751_j21079699488857_3_alg».proof.Proof.RefRead
import proofs.«414751_j21079699488857_3_alg».proof.Proof.Bridge
import proofs.«414751_j21079699488857_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem
open Cert.Attn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

open Cert.KernelIdeal Cert.KernelIdeal.Gen in
/-- The kernel program's run, read: the two results at the lines after the kernel applied to the kernel's arrays, the
    arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v10) = Pipeline.afterTail₀ cfgs (dats m) 0 (V0 m) [hostOps1] c main_v10
      ∧ r.2.mem ((c.tc : Thread nD τ).loc main_v15) = Pipeline.afterTail₀ cfgs (dats m) 0 (V0 m) [hostOps1] c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).2 main_v10 (Pipeline.mem_restRefs_of main_v10 (by decide) (by decide)),
      (h c).2 main_v15 (Pipeline.mem_restRefs_of main_v15 (by decide) (by decide)),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

/-- The two programs, run from memories that agree on the arguments, end with equal results. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v10,
    fun c => Pipeline.afterTail₀ Cert.KernelIdeal.cfgs (Cert.KernelIdeal.Gen.dats m) 0 (Cert.KernelIdeal.Gen.V0 m) [Cert.KernelIdeal.Gen.hostOps1] c Cert.KernelIdeal.main_v15,
    kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · -- the context
    obtain ⟨g0, g1, g2, g3, g4, g5, g6, g7⟩ := hagree c
    obtain ⟨r0, r1, r2, r3, r4, r5, r6, r7⟩ := real_of_pre _ _ _ _ _ _ _ _ (hpre c)
    rw [Cert.ReferenceIdeal.Read.val_main_v29_eq, g0, g1, g2, g3, g4, g5, g6, g7]
    funext i
    obtain ⟨b, d, rfl⟩ : ∃ (b : Fin 32) (d : Fin 1024), i = ix2 b d := ⟨⟨(i 0).val, (i 0).isLt⟩, ⟨(i 1).val, (i 1).isLt⟩, eq_ix2 i⟩
    refine (v29_at _ _ _ _ _ _ _ _ b d).trans (Eq.trans ?_ (ker_ctx_at m c b d).symm)
    exact (ctx_agree _ _ _ _ _ _ _ _ r0 r1 r2 r3 r4 r5 r6 r7 b d).symm
  · -- the weights
    obtain ⟨g0, g1, g2, g3, g4, g5, g6, g7⟩ := hagree c
    obtain ⟨r0, r1, r2, r3, r4, r5, r6, r7⟩ := real_of_pre _ _ _ _ _ _ _ _ (hpre c)
    rw [Cert.ReferenceIdeal.Read.val_main_v26_eq, g0, g1, g2, g3, g4, g5, g6, g7]
    funext i
    have hi2 : (i 2).val < 1 := (i 2).isLt
    obtain ⟨b, j, rfl⟩ : ∃ (b : Fin 32) (j : Fin 2048), i = ix3 b j (0 : Fin 1) := ⟨⟨(i 0).val, (i 0).isLt⟩, ⟨(i 1).val, (i 1).isLt⟩, funext fun a => Fin.ext (by
      match a with
      | ⟨0, _⟩ => rfl
      | ⟨1, _⟩ => rfl
      | ⟨2, _⟩ => show (i 2).val = 0; omega)⟩
    refine (v26_at _ _ _ _ _ _ _ _ b j).trans ?_
    rw [← pos_div_mod j]
    refine Eq.trans ?_ (ker_w_at m c b _ _).symm
    exact (weights_agree _ _ _ _ _ _ _ _ r0 r1 r2 r3 r4 r5 r6 r7 b _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
